-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x768 : Shape := ⟨3, ![64, 2048, 768]⟩
abbrev S64x32x2 : Shape := ⟨3, ![64, 32, 2]⟩
abbrev S64 : Shape := ⟨1, ![64]⟩
abbrev S2048 : Shape := ⟨1, ![2048]⟩
abbrev S_ : Shape := ⟨0, ![]⟩

class Facts : Prop where
  bcast_S_S64x2048x768 : S_.BroadcastsInDim S64x2048x768 (![] : Fin 0 → Fin S64x2048x768.rank)
  reducesTo_S64x2048x768_S_d0_1_2 : S64x2048x768.ReducesTo [0, 1, 2] S_
  h_S_ : 0 < S_.numel
  bcast_S_S64x32x2 : S_.BroadcastsInDim S64x32x2 (![] : Fin 0 → Fin S64x32x2.rank)
  reducesTo_S64x32x2_S_d0_1_2 : S64x32x2.ReducesTo [0, 1, 2] S_

variable [Facts]

def fn {F : FTy → Type} [FloatOps F] (main_arg0 : FVec F S64x2048x768 .f32) (main_arg1 : IVec S64x32x2 32) (main_arg2 : IVec S64 32) (main_arg3 : IVec S2048 32) : IVec S_ 1 :=
  let main_v0 : FVec F S64x2048x768 .f32 := Host.absf main_arg0
  let main_cst : FVec F S_ .f32 := constant S_ .f32 0x7F800000#32
  let main_v1 : FVec F S64x2048x768 .f32 := broadcastInDim S64x2048x768 ![] bcast_S_S64x2048x768 main_cst
  let main_v2 : IVec S64x2048x768 1 := cmpf .olt main_v0 main_v1
  let main_c : IVec S_ 1 := constantI S_ 1 1#1
  let main_v3 : IVec S_ 1 := (fun x v => Host.reduce IntOp.andi x v reducesTo_S64x2048x768_S_d0_1_2 h_S_) main_v2 main_c
  let main_c_0 : IVec S_ 32 := constantI S_ 32 4294967295#32
  let main_v4 : IVec S64x32x2 32 := broadcastInDim S64x32x2 ![] bcast_S_S64x32x2 main_c_0
  let main_v5 : IVec S64x32x2 1 := cmpi .sge main_arg1 main_v4
  let main_c_1 : IVec S_ 1 := constantI S_ 1 1#1
  let main_v6 : IVec S_ 1 := (fun x v => Host.reduce IntOp.andi x v reducesTo_S64x32x2_S_d0_1_2 h_S_) main_v5 main_c_1
  let main_v7 : IVec S_ 1 := andi main_v3 main_v6
  let main_c_2 : IVec S_ 32 := constantI S_ 32 2047#32
  let main_v8 : IVec S64x32x2 32 := broadcastInDim S64x32x2 ![] bcast_S_S64x32x2 main_c_2
  let main_v9 : IVec S64x32x2 1 := cmpi .sle main_arg1 main_v8
  let main_c_3 : IVec S_ 1 := constantI S_ 1 1#1
  let main_v10 : IVec S_ 1 := (fun x v => Host.reduce IntOp.andi x v reducesTo_S64x32x2_S_d0_1_2 h_S_) main_v9 main_c_3
  let main_v11 : IVec S_ 1 := andi main_v7 main_v10
  main_v11
-- ==== Kernel.lean ====
abbrev S64x2048x768 : Shape := ⟨3, ![64, 2048, 768]⟩
abbrev S64x32x2 : Shape := ⟨3, ![64, 32, 2]⟩
abbrev S64 : Shape := ⟨1, ![64]⟩
abbrev S2048 : Shape := ⟨1, ![2048]⟩
abbrev S_ : Shape := ⟨0, ![]⟩
abbrev S64x32x1 : Shape := ⟨3, ![64, 32, 1]⟩
abbrev S64x32 : Shape := ⟨2, ![64, 32]⟩
abbrev S32 : Shape := ⟨1, ![32]⟩
abbrev S1x32 : Shape := ⟨2, ![1, 32]⟩
abbrev S64x1 : Shape := ⟨2, ![64, 1]⟩
abbrev S64x32x768 : Shape := ⟨3, ![64, 32, 768]⟩
abbrev S2x32x1 : Shape := ⟨3, ![2, 32, 1]⟩
abbrev S2x2048x768 : Shape := ⟨3, ![2, 2048, 768]⟩
abbrev S2x32x768 : Shape := ⟨3, ![2, 32, 768]⟩
abbrev S2x32x2048 : Shape := ⟨3, ![2, 32, 2048]⟩

abbrev nBuf : Space → Nat
  | .hbm => 22
  | .vmem => 10
  | .smem => 0
  | _ => 0

abbrev bufTy : (tb : Table) → Fin (tcTables nBuf tb) → BufTy
  | .hbm, ⟨0, _⟩ => ⟨S64x2048x768, .f32⟩
  | .hbm, ⟨1, _⟩ => ⟨S64x32x2, .i32⟩
  | .hbm, ⟨2, _⟩ => ⟨S64, .i32⟩
  | .hbm, ⟨3, _⟩ => ⟨S2048, .i32⟩
  | .hbm, ⟨4, _⟩ => ⟨S_, .i32⟩
  | .hbm, ⟨5, _⟩ => ⟨S64x32x2, .i32⟩
  | .hbm, ⟨6, _⟩ => ⟨S64x32x2, .i32⟩
  | .hbm, ⟨7, _⟩ => ⟨S64x32x1, .i32⟩
  | .hbm, ⟨8, _⟩ => ⟨S64x32, .i32⟩
  | .hbm, ⟨9, _⟩ => ⟨S64x32x1, .i32⟩
  | .hbm, ⟨10, _⟩ => ⟨S64x32, .i32⟩
  | .hbm, ⟨11, _⟩ => ⟨S32, .i32⟩
  | .hbm, ⟨12, _⟩ => ⟨S1x32, .i32⟩
  | .hbm, ⟨13, _⟩ => ⟨S64x1, .i32⟩
  | .hbm, ⟨14, _⟩ => ⟨S64x32, .i32⟩
  | .hbm, ⟨15, _⟩ => ⟨S64x32, .i32⟩
  | .hbm, ⟨16, _⟩ => ⟨S64x32, .i1⟩
  | .hbm, ⟨17, _⟩ => ⟨S64x32, .f32⟩
  | .hbm, ⟨18, _⟩ => ⟨S64x32x1, .i32⟩
  | .hbm, ⟨19, _⟩ => ⟨S64x32x1, .i32⟩
  | .hbm, ⟨20, _⟩ => ⟨S64x32x1, .f32⟩
  | .hbm, ⟨21, _⟩ => ⟨S64x32x768, .f32⟩
  | .local _ .vmem, ⟨0, _⟩ => ⟨S2x32x1, .i32⟩
  | .local _ .vmem, ⟨1, _⟩ => ⟨S2x32x1, .i32⟩
  | .local _ .vmem, ⟨2, _⟩ => ⟨S2x32x1, .i32⟩
  | .local _ .vmem, ⟨3, _⟩ => ⟨S2x32x1, .i32⟩
  | .local _ .vmem, ⟨4, _⟩ => ⟨S2x32x1, .f32⟩
  | .local _ .vmem, ⟨5, _⟩ => ⟨S2x32x1, .f32⟩
  | .local _ .vmem, ⟨6, _⟩ => ⟨S2x2048x768, .f32⟩
  | .local _ .vmem, ⟨7, _⟩ => ⟨S2x2048x768, .f32⟩
  | .local _ .vmem, ⟨8, _⟩ => ⟨S2x32x768, .f32⟩
  | .local _ .vmem, ⟨9, _⟩ => ⟨S2x32x768, .f32⟩
  | _, _ => ⟨S64x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x32x2 : S_.BroadcastsInDim S64x32x2 (![] : Fin 0 → Fin S64x32x2.rank)
  slices_S64x32x2_S64x32x1_0_0_0 : S64x32x2.Slices ![0, 0, 0] S64x32x1
  shapeCasts_S64x32x1_S64x32 : S64x32x1.ShapeCasts S64x32
  slices_S64x32x2_S64x32x1_0_0_1 : S64x32x2.Slices ![0, 0, 1] S64x32x1
  bcast_S32_S1x32_1 : S32.BroadcastsInDim S1x32 (![1] : Fin 1 → Fin S1x32.rank)
  bcast_S64_S64x1_0 : S64.BroadcastsInDim S64x1 (![0] : Fin 1 → Fin S64x1.rank)
  bcast_S1x32_S64x32_0_1 : S1x32.BroadcastsInDim S64x32 (![0, 1] : Fin 2 → Fin S64x32.rank)
  bcast_S64x1_S64x32_0_1 : S64x1.BroadcastsInDim S64x32 (![0, 1] : Fin 2 → Fin S64x32.rank)
  shapeCasts_S64x32_S64x32x1 : S64x32.ShapeCasts S64x32x1
  inb_S2x2048x768_S2x2048x768_0_0_0 : ∀ a, (![0, 0, 0] : Fin 3 → Nat) a + S2x2048x768.size a ≤ S2x2048x768.size a
  h_S2x2048x768 : 0 < S2x2048x768.numel
  bitsLt_bf16_f32 : FTy.bits .bf16 < FTy.bits .f32
  iota_S2x32x2048_d2_w32 : S2x32x2048.Iotas .tc 32 [2]
  inb_S2x32x1_S2x32x1_0_0_0 : ∀ a, (![0, 0, 0] : Fin 3 → Nat) a + S2x32x1.size a ≤ S2x32x1.size a
  h_S2x32x1 : 0 < S2x32x1.numel
  shapeCasts_S2x32x1_S2x32x1 : S2x32x1.ShapeCasts S2x32x1
  broadcasts_S2x32x1_S2x32x2048 : S2x32x1.Broadcasts S2x32x2048
  natLt_1_32 : 1 < 32
  broadcasts_S2x32x1_S2x32x768 : S2x32x1.Broadcasts S2x32x768
  inb_S2x32x768_S2x32x768_0_0_0 : ∀ a, (![0, 0, 0] : Fin 3 → Nat) a + S2x32x768.size a ≤ S2x32x768.size a
  h_S2x32x768 : 0 < S2x32x768.numel
  dot_S2x32x2048_S2x2048x768_S2x32x768_2_1_1_2_0_0_wf : DotDims.WF S2x32x2048 S2x2048x768 S2x32x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x1.size a ≤ S64x32x1.size a
  hwx0_0 : ∀ i : grid0.Coords, EltTy.bits .i32 = 32 ∨ (Rect.block (s := S64x32x1) S2x32x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x1.size a ≤ S64x32x1.size a
  hwx0_1 : ∀ i : grid0.Coords, EltTy.bits .i32 = 32 ∨ (Rect.block (s := S64x32x1) S2x32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32x1.size a ≤ S64x32x1.size a
  hwx0_2 : ∀ i : grid0.Coords, EltTy.bits .f32 = 32 ∨ (Rect.block (s := S64x32x1) S2x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x768.size a ≤ S64x2048x768.size a
  hwx0_3 : ∀ i : grid0.Coords, EltTy.bits .f32 = 32 ∨ (Rect.block (s := S64x2048x768) S2x2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x32x768.size a ≤ S64x32x768.size a
  hwx0_4 : ∀ i : grid0.Coords, EltTy.bits .f32 = 32 ∨ (Rect.block (s := S64x32x768) S2x32x768.size (cc0_transform_4 i) (hinb0_4 i)).WholeWords (EltTy.packing .f32)

variable [Facts₀]

def dot_S2x32x2048_S2x2048x768_S2x32x768_2_1_1_2_0_0 : DotDims S2x32x2048 S2x2048x768 S2x32x768 where
  lhsContracting := [2]
  rhsContracting := [1]
  lhsNonContracting := [1]
  rhsNonContracting := [2]
  lhsBatch := [0]
  rhsBatch := [0]
  wf := dot_S2x32x2048_S2x2048x768_S2x32x768_2_1_1_2_0_0_wf

abbrev win0_0 : Pipeline.Window sig grid0 :=
  Pipeline.Window.ofSpec (Memref.whole main_v13) S2x32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2x2048x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2x32x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x768 : Shape := ⟨3, ![64, 2048, 768]⟩
abbrev S64x32x2 : Shape := ⟨3, ![64, 32, 2]⟩
abbrev S64 : Shape := ⟨1, ![64]⟩
abbrev S2048 : Shape := ⟨1, ![2048]⟩
abbrev S_ : Shape := ⟨0, ![]⟩
abbrev S64x32x1 : Shape := ⟨3, ![64, 32, 1]⟩
abbrev S64x32 : Shape := ⟨2, ![64, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S2048x16x2 : Shape := ⟨3, ![2048, 16, 2]⟩
abbrev S2048x16x768 : Shape := ⟨3, ![2048, 16, 768]⟩
abbrev S2048x768 : Shape := ⟨2, ![2048, 768]⟩
abbrev S64x32x768 : Shape := ⟨3, ![64, 32, 768]⟩
abbrev S32 : Shape := ⟨1, ![32]⟩
abbrev S1x32 : Shape := ⟨2, ![1, 32]⟩
abbrev S64x1 : Shape := ⟨2, ![64, 1]⟩

abbrev nBuf : Space → Nat
  | .hbm => 82
  | .vmem => 0
  | .smem => 0
  | _ => 0

abbrev bufTy : (tb : Table) → Fin (tcTables nBuf tb) → BufTy
  | .hbm, ⟨0, _⟩ => ⟨S64x2048x768, .f32⟩
  | .hbm, ⟨1, _⟩ => ⟨S64x32x2, .i32⟩
  | .hbm, ⟨2, _⟩ => ⟨S64, .i32⟩
  | .hbm, ⟨3, _⟩ => ⟨S2048, .i32⟩
  | .hbm, ⟨4, _⟩ => ⟨S_, .i32⟩
  | .hbm, ⟨5, _⟩ => ⟨S64x32x2, .i32⟩
  | .hbm, ⟨6, _⟩ => ⟨S64x32x2, .i32⟩
  | .hbm, ⟨7, _⟩ => ⟨S64x32x1, .i32⟩
  | .hbm, ⟨8, _⟩ => ⟨S64x32, .i32⟩
  | .hbm, ⟨9, _⟩ => ⟨S2048, .i32⟩
  | .hbm, ⟨10, _⟩ => ⟨S64x32x1, .i32⟩
  | .hbm, ⟨11, _⟩ => ⟨S64x32, .i32⟩
  | .hbm, ⟨12, _⟩ => ⟨S2048, .i32⟩
  | .hbm, ⟨13, _⟩ => ⟨S64, .i32⟩
  | .hbm, ⟨14, _⟩ => ⟨S64x32, .i32⟩
  | .hbm, ⟨15, _⟩ => ⟨S2048, .i32⟩
  | .hbm, ⟨16, _⟩ => ⟨S16, .i32⟩
  | .hbm, ⟨17, _⟩ => ⟨S2048x1, .i32⟩
  | .hbm, ⟨18, _⟩ => ⟨S1x16, .i32⟩
  | .hbm, ⟨19, _⟩ => ⟨S2048x16, .i32⟩
  | .hbm, ⟨20, _⟩ => ⟨S2048x16, .i32⟩
  | .hbm, ⟨21, _⟩ => ⟨S2048x16, .i32⟩
  | .hbm, ⟨22, _⟩ => ⟨S2048x1, .i32⟩
  | .hbm, ⟨23, _⟩ => ⟨S2048x16, .i32⟩
  | .hbm, ⟨24, _⟩ => ⟨S2048x16, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2048x16, .i32⟩
  | .hbm, ⟨29, _⟩ => ⟨S2048x16, .i32⟩
  | .hbm, ⟨30, _⟩ => ⟨S_, .i32⟩
  | .hbm, ⟨31, _⟩ => ⟨S2048x16, .i32⟩
  | .hbm, ⟨32, _⟩ => ⟨S2048x16, .i32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i1⟩
  | .hbm, ⟨37, _⟩ => ⟨S_, .i32⟩
  | .hbm, ⟨38, _⟩ => ⟨S2048x1, .i32⟩
  | .hbm, ⟨39, _⟩ => ⟨S2048x1, .i32⟩
  | .hbm, ⟨40, _⟩ => ⟨S2048x1, .i32⟩
  | .hbm, ⟨41, _⟩ => ⟨S_, .i32⟩
  | .hbm, ⟨42, _⟩ => ⟨S2048x16, .i32⟩
  | .hbm, ⟨43, _⟩ => ⟨S2048x16, .i1⟩
  | .hbm, ⟨44, _⟩ => ⟨S_, .i32⟩
  | .hbm, ⟨45, _⟩ => ⟨S2048x16, .i32⟩
  | .hbm, ⟨46, _⟩ => ⟨S2048x16, .i32⟩
  | .hbm, ⟨47, _⟩ => ⟨S2048x16, .i32⟩
  | .hbm, ⟨48, _⟩ => ⟨S2048x16, .i32⟩
  | .hbm, ⟨49, _⟩ => ⟨S2048x16x1, .i32⟩
  | .hbm, ⟨50, _⟩ => ⟨S2048x16x1, .i32⟩
  | .hbm, ⟨51, _⟩ => ⟨S2048x16x2, .i32⟩
  | .hbm, ⟨52, _⟩ => ⟨S2048x16x768, .f32⟩
  | .hbm, ⟨53, _⟩ => ⟨S2048x16x1, .i1⟩
  | .hbm, ⟨54, _⟩ => ⟨S_, .f32⟩
  | .hbm, ⟨55, _⟩ => ⟨S2048x16x768, .i1⟩
  | .hbm, ⟨56, _⟩ => ⟨S2048x16x768, .f32⟩
  | .hbm, ⟨57, _⟩ => ⟨S2048x16x768, .f32⟩
  | .hbm, ⟨58, _⟩ => ⟨S2048x16, .i32⟩
  | .hbm, ⟨59, _⟩ => ⟨S_, .i32⟩
  | .hbm, ⟨60, _⟩ => ⟨S2048, .i32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x1, .i32⟩
  | .hbm, ⟨65, _⟩ => ⟨S2048x1, .f32⟩
  | .hbm, ⟨66, _⟩ => ⟨S_, .f32⟩
  | .hbm, ⟨67, _⟩ => ⟨S2048x768, .f32⟩
  | .hbm, ⟨68, _⟩ => ⟨S2048x768, .f32⟩
  | .hbm, ⟨69, _⟩ => ⟨S2048x768, .f32⟩
  | .hbm, ⟨70, _⟩ => ⟨S64x32x768, .f32⟩
  | .hbm, ⟨71, _⟩ => ⟨S32, .i32⟩
  | .hbm, ⟨72, _⟩ => ⟨S1x32, .i32⟩
  | .hbm, ⟨73, _⟩ => ⟨S64x1, .i32⟩
  | .hbm, ⟨74, _⟩ => ⟨S64x32, .i32⟩
  | .hbm, ⟨75, _⟩ => ⟨S64x32, .i32⟩
  | .hbm, ⟨76, _⟩ => ⟨S64x32, .i1⟩
  | .hbm, ⟨77, _⟩ => ⟨S64x32x1, .i1⟩
  | .hbm, ⟨78, _⟩ => ⟨S_, .f32⟩
  | .hbm, ⟨79, _⟩ => ⟨S64x32x768, .i1⟩
  | .hbm, ⟨80, _⟩ => ⟨S64x32x768, .f32⟩
  | .hbm, ⟨81, _⟩ => ⟨S64x32x768, .f32⟩
  | _, _ => ⟨S64x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S_S64x32x2 : S_.BroadcastsInDim S64x32x2 (![] : Fin 0 → Fin S64x32x2.rank)
  slices_S64x32x2_S64x32x1_0_0_0 : S64x32x2.Slices ![0, 0, 0] S64x32x1
  shapeCasts_S64x32x1_S64x32 : S64x32x1.ShapeCasts S64x32
  shapeCasts_S64x32_S2048 : S64x32.ShapeCasts S2048
  slices_S64x32x2_S64x32x1_0_0_1 : S64x32x2.Slices ![0, 0, 1] S64x32x1
  bcast_S64_S64x32_0 : S64.BroadcastsInDim S64x32 (![0] : Fin 1 → Fin S64x32.rank)
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S_S2048x1 : S_.BroadcastsInDim S2048x1 (![] : Fin 0 → Fin S2048x1.rank)
  bcast_S2048x16_S2048x16x1_0_1 : S2048x16.BroadcastsInDim S2048x16x1 (![0, 1] : Fin 2 → Fin S2048x16x1.rank)
  concatenates_S2048x16x1_S2048x16x1_S2048x16x2_d2 : Shape.Concatenates [S2048x16x1, S2048x16x1] S2048x16x2 2
  bcast_S2048x16x1_S2048x16x768_0_1_2 : S2048x16x1.BroadcastsInDim S2048x16x768 (![0, 1, 2] : Fin 3 → Fin S2048x16x768.rank)
  bcast_S_S2048x16x768 : S_.BroadcastsInDim S2048x16x768 (![] : Fin 0 → Fin S2048x16x768.rank)
  natLt_1_32 : 1 < 32
  reducesTo_S2048x16_S2048_d1 : S2048x16.ReducesTo [1] S2048
  h_S_ : 0 < S_.numel
  reducesTo_S2048x16x768_S2048x768_d1 : S2048x16x768.ReducesTo [1] S2048x768
  bcast_S2048x1_S2048x768_0_1 : S2048x1.BroadcastsInDim S2048x768 (![0, 1] : Fin 2 → Fin S2048x768.rank)
  shapeCasts_S2048x768_S64x32x768 : S2048x768.ShapeCasts S64x32x768
  bcast_S32_S1x32_1 : S32.BroadcastsInDim S1x32 (![1] : Fin 1 → Fin S1x32.rank)
  bcast_S64_S64x1_0 : S64.BroadcastsInDim S64x1 (![0] : Fin 1 → Fin S64x1.rank)
  bcast_S1x32_S64x32_0_1 : S1x32.BroadcastsInDim S64x32 (![0, 1] : Fin 2 → Fin S64x32.rank)
  bcast_S64x1_S64x32_0_1 : S64x1.BroadcastsInDim S64x32 (![0, 1] : Fin 2 → Fin S64x32.rank)
  bcast_S64x32_S64x32x1_0_1 : S64x32.BroadcastsInDim S64x32x1 (![0, 1] : Fin 2 → Fin S64x32x1.rank)
  bcast_S64x32x1_S64x32x768_0_1_2 : S64x32x1.BroadcastsInDim S64x32x768 (![0, 1, 2] : Fin 3 → Fin S64x32x768.rank)
  bcast_S_S64x32x768 : S_.BroadcastsInDim S64x32x768 (![] : Fin 0 → Fin S64x32x768.rank)
  gather_S64x2048x768_S2048x16x2_S2048x16x768_2_01_n_n_01_2_11768_wf : GatherDims.WF S64x2048x768 S2048x16x2 S2048x16x768 [2] [0, 1] [] [0, 1] [] 2 ![1, 1, 768]

variable [Facts₀]

def gather_S64x2048x768_S2048x16x2_S2048x16x768_2_01_n_n_01_2_11768 : GatherDims S64x2048x768 S2048x16x2 S2048x16x768 where
  offsetDims := [2]
  collapsedSliceDims := [0, 1]
  operandBatchingDims := []
  startIndicesBatchingDims := []
  startIndexMap := [0, 1]
  indexVectorDim := 2
  sliceSizes := ![1, 1, 768]
  wf := gather_S64x2048x768_S2048x16x2_S2048x16x768_2_01_n_n_01_2_11768_wf

class Facts : Prop extends Facts₀ where

variable [Facts]
-- ==== Proof.Spec.lean ====
/-
  Span pooling, as one function of the argument arrays.

  For batch row `b`, span `s` and feature `d` the result is the mean of the token embeddings
  `E[b, l, d]` over the tokens `l` of the span's window, or zero for a span that is not live.
  The stored positions are one less than the span's boundaries: the span's first token is
  `P[b, s, 0] + 1` and the token after its last is `P[b, s, 1] + 1`. The window is the span cut
  to at most sixteen tokens and to the sequence, `[first, min (after, first + 16, 2048))`; its length,
  at least one, is what the sum is divided by. A span is live when its number `s` is below the row's
  span count `N[b]`.

  Two spellings of that function are defined here. `pooled` sums over every token of the sequence with
  weight one inside the window and zero outside, and multiplies by the reciprocal of the length.
  `gatherPooled` sums over the sixteen offsets `j` from the first token, keeping the offsets that stay
  before the span's end, reads each token at the offset clipped into the sequence, and divides by the
  number of offsets kept. They agree when every stored position lies in `[-1, 2047]`, that is when both
  boundaries of every span are positions of the sequence.
-/
import Idealize.ShloMosaic.PureOps.Ideal
import Idealize.ShloMosaic.PureOps.Ideal.Laws
import Idealize.ShloMosaic.Lib.ValueIdx

noncomputable section

namespace Cert.SpanPool

open Idealize.ShloMosaic Idealize.ShloMosaic.ValueIdx

/-- Embeddings `[64, 2048, 768]`, stored span positions `[64, 32, 2]`, span counts `[64]`, the pooled
    result `[64, 32, 768]` and the live-span mask `[64, 32]`. -/
abbrev SE : Shape := ⟨3, ![64, 2048, 768]⟩
abbrev SP : Shape := ⟨3, ![64, 32, 2]⟩
abbrev SN : Shape := ⟨1, ![64]⟩
abbrev SO : Shape := ⟨3, ![64, 32, 768]⟩
abbrev SM : Shape := ⟨2, ![64, 32]⟩

/-- Every stored position is between `-1` and `2047`: both boundaries of every span, the stored
    position plus one, are positions `0 … 2048` of the sequence. -/
def InRange (P : SP.Idx → BitVec 32) : Prop := ∀ i, -1 ≤ (P i).toInt ∧ (P i).toInt ≤ 2047

/-- The span's first token. -/
def first (P : SP.Idx → BitVec 32) (b : Fin 64) (s : Fin 32) : BitVec 32 := IntOp.addi (P (ix3 b s (0 : Fin 2))) 1#32
/-- The token after the span's last. -/
def after (P : SP.Idx → BitVec 32) (b : Fin 64) (s : Fin 32) : BitVec 32 := IntOp.addi (P (ix3 b s (1 : Fin 2))) 1#32

/-- The end of a window that starts at `a` in a span that ends at `z`. -/
def stop (a z : BitVec 32) : BitVec 32 := IntOp.minsi (IntOp.minsi z (IntOp.addi a 16#32)) 2048#32

/-- Token `l`'s weight in the window `[a, e)`: one inside, zero outside. -/
def weight (a e : BitVec 32) (l : Fin 2048) : EReal :=
  (((BitVec.setWidth 32 (IntOp.andi (IntOp.cmpi .sge (BitVec.ofNat 32 l.val) a) (IntOp.cmpi .slt (BitVec.ofNat 32 l.val) e))).toInt : ℝ) : EReal)

/-- Span `s` of row `b` is live: its number is below the row's span count. -/
def live (N : SN.Idx → BitVec 32) (b : Fin 64) (s : Fin 32) : BitVec 1 := IntOp.cmpi .slt (BitVec.ofNat 32 s.val) (N (ix1 b))

/-- The factor the window's sum is multiplied by: the live bit times the reciprocal of the window's
    length, the length taken at least one. -/
def scale (v : BitVec 1) (a e : BitVec 32) : EReal :=
  ((v.toNat : ℝ) : EReal) * Ideal.div (Ideal.ofBits .f32 0x3F800000#32)
    (max (((IntOp.subi e a).toInt : ℝ) : EReal) (Ideal.ofBits .f32 0x3F800000#32))

/-- THE RESULT, summing over the whole sequence with the window's weights. -/
def pooled (E : SE.Idx → EReal) (P : SP.Idx → BitVec 32) (N : SN.Idx → BitVec 32) : SO.Idx → EReal := fun i =>
  (∑ l : Fin 2048, weight (first P (i 0) (i 1)) (stop (first P (i 0) (i 1)) (after P (i 0) (i 1))) l * E (ix3 (i 0) l (i 2)))
    * scale (live N (i 0) (i 1)) (first P (i 0) (i 1)) (stop (first P (i 0) (i 1)) (after P (i 0) (i 1)))

/-- The live-span mask. -/
def liveMask (N : SN.Idx → BitVec 32) : SM.Idx → BitVec 1 := fun i => live N (i 0) (i 1)

/-! ## The same result by sixteen offsets from the first token -/

/-- Offset `j` from `a` stays before the span's end `z`. -/
def kept (a z : BitVec 32) (j : Fin 16) : BitVec 1 := IntOp.cmpi .slt (IntOp.addi a (BitVec.ofNat 32 j.val)) z

/-- The token read at offset `j` from `a`: `a + j` clipped into `[0, 2047]` (and, were it negative, counted
    from the sequence's end, which after the clip never happens). -/
def tokenWord (a : BitVec 32) (j : Fin 16) : BitVec 32 :=
  Scalar.select (IntOp.cmpi .slt (IntOp.minsi 2047#32 (IntOp.maxsi 0#32 (IntOp.addi a (BitVec.ofNat 32 j.val)))) 0#32)
    (IntOp.addi (IntOp.minsi 2047#32 (IntOp.maxsi 0#32 (IntOp.addi a (BitVec.ofNat 32 j.val)))) 2048#32)
    (IntOp.minsi 2047#32 (IntOp.maxsi 0#32 (IntOp.addi a (BitVec.ofNat 32 j.val))))

/-- That token as a position of the sequence. -/
def token (a : BitVec 32) (j : Fin 16) : Fin 2048 := ⟨min (tokenWord a j).toInt.toNat 2047, by omega⟩

/-- How many of the sixteen offsets are kept. -/
def keptCount (a z : BitVec 32) : ℕ := (Finset.univ.filter fun j : Fin 16 => kept a z j = 1#1).card

/-- THE RESULT, by the sixteen offsets. -/
def gatherPooled (E : SE.Idx → EReal) (P : SP.Idx → BitVec 32) (N : SN.Idx → BitVec 32) : SO.Idx → EReal := fun i =>
  Scalar.select (live N (i 0) (i 1))
    (Ideal.div
      (Ideal.ofBits .f32 0x00000000#32 + ∑ j : Fin 16,
        Scalar.select (kept (first P (i 0) (i 1)) (after P (i 0) (i 1)) j)
          (E (ix3 (i 0) (token (first P (i 0) (i 1)) j) (i 2))) (Ideal.ofBits .f32 0x00000000#32))
      (((IntOp.maxsi (BitVec.ofNat 32 (keptCount (first P (i 0) (i 1)) (after P (i 0) (i 1)))) 1#32).toInt : ℝ) : EReal))
    (Ideal.ofBits .f32 0x00000000#32)

end Cert.SpanPool

end
-- ==== Proof.SpanMath.lean ====
/-
  The two spellings of span pooling agree.

  For boundaries `a` (the span's first token) and `z` (the token after its last) that are positions
  `0 … 2048` of the sequence, write `e = min z (a + 16)` for the window's end (the cut to the sequence,
  `2048`, is then idle). The sixteen offsets `j` with `a + j < z` are exactly the tokens `l = a + j` of the
  window `[a, e)`, and at such an offset the clipped read is the read at `a + j` itself; so the sum over the
  kept offsets is the sum over the sequence with weight one inside the window and zero outside. The number of
  kept offsets is `e - a` cut off at zero, and the window's signed length `e - a` may be negative (a span that
  ends before it starts), but the larger of either and one is the same number `c ≥ 1`. Dividing by `c` is
  multiplying by the real `1 / c`, at the infinities too, so nothing is asked of the embeddings; for a span that
  is not live both spellings give zero, since `x * 0 = 0` for every extended real `x`.

  The range property gives the bounds on `a` and `z`: a stored position in `[-1, 2047]`, plus one, is a
  word of value at most `2048`. All the words that occur are then below `2 ^ 31`, where the signed
  comparisons, minimum and maximum are those of the values.
-/
import proofs.«401474_j7894149890369_3_alg».proof.Proof.Spec
import Idealize.ShloMosaic.Lib.StableHlo.Predicate
import Mathlib.Algebra.BigOperators.Group.Finset.Basic
import Mathlib.Data.Fintype.Fin
import Mathlib.Data.EReal.Basic

noncomputable section

namespace Cert.SpanPool

open Idealize.ShloMosaic Idealize.ShloMosaic.ValueIdx Idealize.ShloMosaic.StableHlo.Predicate

/-! ## Words: the boundaries are small non-negative words -/

/-- A stored position in `[-1, 2047]`, plus one, is a word of value at most 2048. -/
theorem succ_toNat_le {x : BitVec 32} (h : -1 ≤ x.toInt ∧ x.toInt ≤ 2047) : (IntOp.addi x 1#32).toNat ≤ 2048 := by
  obtain ⟨h1, h2⟩ := h
  have hx := x.isLt
  unfold IntOp.addi
  rw [BitVec.toNat_add, show (1#32 : BitVec 32).toNat = 1 from rfl]
  rw [BitVec.toInt_eq_toNat_cond] at h1 h2
  split at h1 <;> omega

theorem first_toNat_le {P : SP.Idx → BitVec 32} (hP : InRange P) (b : Fin 64) (s : Fin 32) : (first P b s).toNat ≤ 2048 :=
  succ_toNat_le (hP _)

theorem after_toNat_le {P : SP.Idx → BitVec 32} (hP : InRange P) (b : Fin 64) (s : Fin 32) : (after P b s).toNat ≤ 2048 :=
  succ_toNat_le (hP _)

/-- Adding a small constant to a word of value at most 2048 does not wrap. -/
theorem addi_small_toNat {a : BitVec 32} (ha : a.toNat ≤ 2048) (k : ℕ) (hk : k ≤ 16) :
    (IntOp.addi a (BitVec.ofNat 32 k)).toNat = a.toNat + k := by
  unfold IntOp.addi
  rw [BitVec.toNat_add, BitVec.toNat_ofNat]
  omega

/-- The signed minimum of two small words is the minimum of their values. -/
theorem minsi_toNat {x y : BitVec 32} (hx : x.toNat < 2 ^ 31) (hy : y.toNat < 2 ^ 31) :
    (IntOp.minsi x y).toNat = min x.toNat y.toNat := by
  have hxi := toInt_eq_toNat_of_lt hx
  have hyi := toInt_eq_toNat_of_lt hy
  unfold IntOp.minsi
  by_cases h : x.slt y
  · rw [if_pos h]; simp only [BitVec.slt, hxi, hyi, decide_eq_true_eq] at h; omega
  · rw [if_neg h]; simp only [BitVec.slt, hxi, hyi, decide_eq_true_eq] at h; omega

/-- The signed maximum of two small words is the maximum of their values. -/
theorem maxsi_toNat {x y : BitVec 32} (hx : x.toNat < 2 ^ 31) (hy : y.toNat < 2 ^ 31) :
    (IntOp.maxsi x y).toNat = max x.toNat y.toNat := by
  have hxi := toInt_eq_toNat_of_lt hx
  have hyi := toInt_eq_toNat_of_lt hy
  unfold IntOp.maxsi
  by_cases h : y.slt x
  · rw [if_pos h]; simp only [BitVec.slt, hxi, hyi, decide_eq_true_eq] at h; omega
  · rw [if_neg h]; simp only [BitVec.slt, hxi, hyi, decide_eq_true_eq] at h; omega

/-- Offset `j` is kept exactly when `a + j` is before the span's end. -/
theorem kept_iff {a z : BitVec 32} (ha : a.toNat ≤ 2048) (hz : z.toNat ≤ 2048) (j : Fin 16) :
    kept a z j = 1#1 ↔ a.toNat + j.val < z.toNat := by
  have hj := j.isLt
  have hw := addi_small_toNat ha j.val (by omega)
  unfold kept
  rw [slt_iff_toNat (by omega) (by omega), hw]

/-- The window's end is the smaller of the span's end and sixteen past the first token. -/
theorem stop_toNat {a z : BitVec 32} (ha : a.toNat ≤ 2048) (hz : z.toNat ≤ 2048) :
    (stop a z).toNat = min z.toNat (a.toNat + 16) := by
  have hw : (IntOp.addi a 16#32).toNat = a.toNat + 16 := addi_small_toNat ha 16 (le_refl _)
  unfold stop
  rw [minsi_toNat (by rw [minsi_toNat (by omega) (by omega)]; omega) (by decide),
    minsi_toNat (by omega) (by omega), hw]
  show min (min z.toNat (a.toNat + 16)) 2048 = _
  omega

/-! ## The token read at a kept offset, and a token's weight -/

/-- A word that is a position of the sequence is its own clip into `[0, 2047]`, and is not negative. -/
theorem clip_eq {w : BitVec 32} (hw : w.toNat < 2048) :
    Scalar.select (IntOp.cmpi .slt (IntOp.minsi 2047#32 (IntOp.maxsi 0#32 w)) 0#32)
      (IntOp.addi (IntOp.minsi 2047#32 (IntOp.maxsi 0#32 w)) 2048#32)
      (IntOp.minsi 2047#32 (IntOp.maxsi 0#32 w)) = w := by
  have h0 : (0#32 : BitVec 32).toNat = 0 := rfl
  have h2047 : (2047#32 : BitVec 32).toNat = 2047 := rfl
  have hw31 : w.toNat < 2 ^ 31 := by omega
  have h1 : IntOp.maxsi 0#32 w = w := by
    apply BitVec.eq_of_toNat_eq
    rw [maxsi_toNat (by rw [h0]; omega) hw31, h0]; omega
  have h2 : IntOp.minsi 2047#32 w = w := by
    apply BitVec.eq_of_toNat_eq
    rw [minsi_toNat (by rw [h2047]; omega) hw31, h2047]; omega
  have h3 : IntOp.cmpi .slt w 0#32 = 0#1 := by
    apply eq_zero_of_ne_one
    rw [slt_iff_toNat hw31 (by rw [h0]; omega), h0]; omega
  rw [h1, h2, h3, select_zero]

/-- Where `a + j` is a position of the sequence the clip is the identity: the token read is `a + j`. -/
theorem token_val {a : BitVec 32} (ha : a.toNat ≤ 2048) (j : Fin 16) (h : a.toNat + j.val < 2048) :
    (token a j).val = a.toNat + j.val := by
  have hj := j.isLt
  have hw := addi_small_toNat ha j.val (by omega)
  have ht : tokenWord a j = IntOp.addi a (BitVec.ofNat 32 j.val) := clip_eq (by omega)
  have hv : (token a j).val = min (tokenWord a j).toInt.toNat 2047 := rfl
  rw [hv, ht, toInt_eq_toNat_of_lt (by omega), Int.toNat_natCast, hw]
  omega
/-- A one-bit conjunction is set exactly when both bits are. -/
theorem andi_eq_one_iff (p q : BitVec 1) : IntOp.andi p q = 1#1 ↔ p = 1#1 ∧ q = 1#1 := by
  rcases BitVec.eq_zero_or_eq_one p with rfl | rfl <;> rcases BitVec.eq_zero_or_eq_one q with rfl | rfl <;> decide

/-- A widened bit, read signed, as an extended real: one when set, zero when not. -/
theorem bit_cast (p : BitVec 1) : (((BitVec.setWidth 32 p).toInt : ℝ) : EReal) = if p = 1#1 then 1 else 0 := by
  rcases BitVec.eq_zero_or_eq_one p with rfl | rfl
  · rw [if_neg (by decide), show (BitVec.setWidth 32 (0#1)).toInt = 0 from by decide]; simp
  · rw [if_pos rfl, show (BitVec.setWidth 32 (1#1)).toInt = 1 from by decide]; simp

/-- Token `l`'s weight in the window `[a, e)` of small words: one inside, zero outside. -/
theorem weight_eq {a e : BitVec 32} (ha : a.toNat < 2 ^ 31) (he : e.toNat < 2 ^ 31) (l : Fin 2048) :
    weight a e l = if a.toNat ≤ l.val ∧ l.val < e.toNat then 1 else 0 := by
  have hl := l.isLt
  have hn : (BitVec.ofNat 32 l.val).toNat = l.val := by rw [BitVec.toNat_ofNat]; omega
  unfold weight
  rw [bit_cast]
  refine if_congr ?_ rfl rfl
  rw [andi_eq_one_iff, sge_iff_toNat (by omega) ha, slt_iff_toNat (by omega) he, hn]

/-! ## The two sums agree, and so do the two lengths -/

/-- Sixteen offsets from `a`, those before `z` kept, against the whole sequence weighted by the window
    `[a, min z (a + 16))`: both are the sum of `f` over that window. `g j` is the token read at offset `j`;
    at a kept offset it is `a + j`. -/
theorem sum_offsets_eq_sum_window (a z : ℕ) (hz : z ≤ 2048) (g : Fin 16 → Fin 2048)
    (hg : ∀ j : Fin 16, a + j.val < z → (g j).val = a + j.val) (f : Fin 2048 → EReal) :
    (∑ j : Fin 16, if a + j.val < z then f (g j) else 0)
      = ∑ l : Fin 2048, (if a ≤ l.val ∧ l.val < min z (a + 16) then (1 : EReal) else 0) * f l := by
  have hR : ∀ l : Fin 2048, (if a ≤ l.val ∧ l.val < min z (a + 16) then (1 : EReal) else 0) * f l
      = if a ≤ l.val ∧ l.val < min z (a + 16) then f l else 0 := by
    intro l; split
    · rw [one_mul]
    · rw [zero_mul]
  simp only [hR]
  rw [← Finset.sum_filter, ← Finset.sum_filter]
  refine Finset.sum_bij (fun j _ => g j) ?_ ?_ ?_ ?_
  · intro j hj
    have hj' := (Finset.mem_filter.1 hj).2
    have e := hg j hj'
    have hlt := j.isLt
    exact Finset.mem_filter.2 ⟨Finset.mem_univ _, by omega⟩
  · intro j₁ h₁ j₂ h₂ e
    have e₁ := hg j₁ (Finset.mem_filter.1 h₁).2
    have e₂ := hg j₂ (Finset.mem_filter.1 h₂).2
    have e' : (g j₁).val = (g j₂).val := congrArg Fin.val e
    apply Fin.ext; omega
  · intro l hl
    have hl' := (Finset.mem_filter.1 hl).2
    have hk : a + (l.val - a) < z := by omega
    refine ⟨⟨l.val - a, by omega⟩, Finset.mem_filter.2 ⟨Finset.mem_univ _, hk⟩, ?_⟩
    apply Fin.ext
    show (g ⟨l.val - a, _⟩).val = l.val
    rw [hg ⟨l.val - a, _⟩ hk]
    show a + (l.val - a) = l.val
    omega
  · intro j _; rfl

/-- Of the sixteen offsets from `a`, those before `z` number `min z (a + 16) - a` (none when `z ≤ a`). -/
theorem card_offsets (a z : ℕ) : (Finset.univ.filter fun j : Fin 16 => a + j.val < z).card = min z (a + 16) - a := by
  have h : (Finset.univ.filter fun j : Fin 16 => a + j.val < z) = Finset.univ.filter fun j : Fin 16 => j.val < z - a := by
    ext j; simp only [Finset.mem_filter, Finset.mem_univ, true_and]; omega
  rw [h, Fin.card_filter_val_lt]; omega

theorem keptCount_eq {a z : BitVec 32} (ha : a.toNat ≤ 2048) (hz : z.toNat ≤ 2048) :
    keptCount a z = min z.toNat (a.toNat + 16) - a.toNat := by
  unfold keptCount
  rw [← card_offsets]
  congr 1
  ext j
  simp only [Finset.mem_filter, Finset.mem_univ, true_and]
  exact kept_iff ha hz j

/-- The count of kept offsets, taken at least one, read as a signed word. -/
theorem maxsi_count_toInt (k : ℕ) (hk : k ≤ 16) : (IntOp.maxsi (BitVec.ofNat 32 k) 1#32).toInt = ((max k 1 : ℕ) : ℤ) := by
  have hn : (BitVec.ofNat 32 k).toNat = k := by rw [BitVec.toNat_ofNat]; omega
  have h1 : (1#32 : BitVec 32).toNat = 1 := rfl
  have h := maxsi_toNat (x := BitVec.ofNat 32 k) (y := 1#32) (by omega) (by decide)
  rw [hn, h1] at h
  rw [toInt_eq_toNat_of_lt (by omega), h]

/-- The window's length as a signed word is the difference of the two values: negative when the span ends
    before it starts. -/
theorem subi_toInt {e a : BitVec 32} (he : e.toNat ≤ 2048) (ha : a.toNat ≤ 2048) :
    (IntOp.subi e a).toInt = (e.toNat : ℤ) - (a.toNat : ℤ) := by
  unfold IntOp.subi
  rw [BitVec.toInt_eq_toNat_cond, BitVec.toNat_sub]
  split <;> omega

/-- The divisors agree: the count of kept offsets, at least one, is the window's signed length, at least one. -/
theorem divisor_eq {a z : BitVec 32} (ha : a.toNat ≤ 2048) (hz : z.toNat ≤ 2048) :
    (IntOp.maxsi (BitVec.ofNat 32 (keptCount a z)) 1#32).toInt = max (IntOp.subi (stop a z) a).toInt 1 := by
  have he := stop_toNat ha hz
  have hk := keptCount_eq ha hz
  rw [maxsi_count_toInt _ (by omega), subi_toInt (by omega) ha, he, hk]
  omega

/-! ## The mean: dividing by the length against multiplying by its reciprocal -/

theorem ofBits_one_f32 : Ideal.ofBits .f32 0x3F800000#32 = 1 := by
  simp [Ideal.ofBits, Ideal.ieee, -EReal.coe_mul]; norm_num

/-- The larger of an integer and one, among the extended reals. -/
theorem coe_max_one (n : ℤ) : max (((n : ℝ)) : EReal) 1 = (((max n 1 : ℤ) : ℝ) : EReal) := by
  rcases le_total n 1 with h | h
  · rw [max_eq_right h, max_eq_right (by exact_mod_cast h)]; simp
  · rw [max_eq_left h, max_eq_left (by exact_mod_cast h)]

/-- A sum `S` over a live span divided by the length `max n 1` is `S` times the reciprocal of that length; over
    a span that is not live both are zero. Nothing is asked of `S`: the reciprocal is a positive real. -/
theorem mean_eq (S : EReal) (v : BitVec 1) (n : ℤ) :
    Scalar.select v (Ideal.div (0 + S) (((max n 1 : ℤ) : ℝ) : EReal)) 0
      = S * (((v.toNat : ℝ) : EReal) * Ideal.div 1 (max ((n : ℝ) : EReal) 1)) := by
  have hc : ((max n 1 : ℤ) : ℝ) ≠ 0 := by
    have : (1 : ℤ) ≤ max n 1 := le_max_right _ _
    exact_mod_cast (by omega : max n 1 ≠ 0)
  rw [coe_max_one, zero_add, Ideal.div_coe hc, Ideal.div_coe hc]
  rcases BitVec.eq_zero_or_eq_one v with rfl | rfl
  · rw [select_zero, show (0#1 : BitVec 1).toNat = 0 from rfl]; simp
  · rw [select_one, show (1#1 : BitVec 1).toNat = 1 from rfl]; simp

/-! ## The two spellings agree -/

/-- One span's pooled value, the sixteen offsets against the weighted sequence, for boundaries `a`, `z` that
    are positions `0 … 2048`. -/
theorem window_mean_eq {a z : BitVec 32} (ha : a.toNat ≤ 2048) (hz : z.toNat ≤ 2048) (v : BitVec 1) (f : Fin 2048 → EReal) :
    Scalar.select v
        (Ideal.div
          (Ideal.ofBits .f32 0x00000000#32 + ∑ j : Fin 16,
            Scalar.select (kept a z j) (f (token a j)) (Ideal.ofBits .f32 0x00000000#32))
          (((IntOp.maxsi (BitVec.ofNat 32 (keptCount a z)) 1#32).toInt : ℝ) : EReal))
        (Ideal.ofBits .f32 0x00000000#32)
      = (∑ l : Fin 2048, weight a (stop a z) l * f l) * scale v a (stop a z) := by
  have he := stop_toNat ha hz
  have hS : (∑ j : Fin 16, Scalar.select (kept a z j) (f (token a j)) (Ideal.ofBits .f32 0x00000000#32))
      = ∑ l : Fin 2048, weight a (stop a z) l * f l := by
    have h1 : ∀ j : Fin 16, Scalar.select (kept a z j) (f (token a j)) (Ideal.ofBits .f32 0x00000000#32)
        = if a.toNat + j.val < z.toNat then f (token a j) else 0 := by
      intro j
      rw [Ideal.ofBits_zero_f32]
      unfold Scalar.select
      exact if_congr (kept_iff ha hz j) rfl rfl
    have h2 : ∀ l : Fin 2048, weight a (stop a z) l
        = if a.toNat ≤ l.val ∧ l.val < min z.toNat (a.toNat + 16) then 1 else 0 := by
      intro l; rw [weight_eq (by omega) (by omega), he]
    simp only [h1, h2]
    exact sum_offsets_eq_sum_window a.toNat z.toNat hz (token a) (fun j hj => token_val ha j (by omega)) f
  unfold scale
  rw [hS, divisor_eq ha hz, Ideal.ofBits_zero_f32, ofBits_one_f32]
  exact mean_eq _ v _

/-- THE TWO SPELLINGS AGREE when every stored position lies in `[-1, 2047]`. -/
theorem gatherPooled_eq_pooled (E : SE.Idx → EReal) (P : SP.Idx → BitVec 32) (N : SN.Idx → BitVec 32) (hP : InRange P) :
    gatherPooled E P N = pooled E P N := by
  funext i
  exact window_mean_eq (first_toNat_le hP (i 0) (i 1)) (after_toNat_le hP (i 0) (i 1)) (live N (i 0) (i 1))
    (fun l => E (ix3 (i 0) l (i 2)))

end Cert.SpanPool

end
-- ==== Proof.KernelPay.lean ====
/-
  One element of what the kernel body stores.

  At a grid point the body holds two batch rows: the first tokens `a[r, s]` and the ends `z[r, s]` of their 32 spans,
  the spans' live factors `v[r, s]` and the rows' embeddings `x[r, l, d]`. It stores, at `(r, s, d)`, the contraction over
  the 2048 tokens `l` of the window's weight of `l` (one for `a ≤ l < stop a z`, zero otherwise) with `x[r, l, d]`, times
  `v[r, s]` times the reciprocal of the window's length taken at least one. The contraction is a matrix product
  batched over the row `r`; at the extended reals it is the plain sum, and narrowing the operands' format changes nothing.
-/
import proofs.«401474_j7894149890369_3_alg».proof.Proof.Gen.KernelIdeal.Skeleton
import proofs.«401474_j7894149890369_3_alg».proof.Proof.Spec
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.SpanPool

/-- A `[2, 32, 1]` column spread along a trailing axis of any length reads, at `(r, s, l)`, the column's entry `(r, s)`. -/
theorem spread_apply {α : Type} {n : Nat} (x : (⟨3, ![2, 32, 1]⟩ : Shape).Idx → α)
    (h : (⟨3, ![2, 32, 1]⟩ : Shape).Broadcasts ⟨3, ![2, 32, n]⟩) (r : Fin 2) (s : Fin 32) (l : Fin n) :
    broadcastTo ⟨3, ![2, 32, n]⟩ x h (ix3 r s l) = x (ix3 r s (0 : Fin 1)) := by
  refine broadcastTo_apply x h (ix3 r s l) (ix3 r s (0 : Fin 1)) fun a => ?_
  match a with
  | ⟨0, _⟩ => rfl
  | ⟨1, _⟩ => rfl
  | ⟨2, _⟩ => rfl

/-- The token counter along the last axis of `[2, 32, 2048]` reads `l` at `(r, s, l)`. -/
theorem counter_apply (h : S2x32x2048.Iotas .tc 32 [2]) (r : Fin 2) (s : Fin 32) (l : Fin 2048) :
    iota .tc S2x32x2048 32 [2] h (ix3 r s l) = BitVec.ofNat 32 l.val := by
  show BitVec.ofNat 32 (0 * 2048 + l.val) = BitVec.ofNat 32 l.val
  rw [Nat.zero_mul, Nat.zero_add]

/-- The batched matrix product into a zero accumulator, read at `(r, s, d)`: the sum over the tokens `l` of the left
    operand at `(r, s, l)` times the right at `(r, l, d)`. -/
theorem contraction_apply (w : FVec Ideal S2x32x2048 .bf16) (x : FVec Ideal S2x2048x768 .bf16) (r : Fin 2) (s : Fin 32) (d : Fin 768) :
    matmul dot_S2x32x2048_S2x2048x768_S2x32x768_2_1_1_2_0_0 none w x (constant S2x32x768 .f32 0x00000000#32) (ix3 r s d)
      = ∑ l : Fin 2048, w (ix3 r s l) * x (ix3 r l d) := by
  refine (Ideal.matmul_constant_zero_apply dot_S2x32x2048_S2x2048x768_S2x32x768_2_1_1_2_0_0 none w x (ix3 r s d)).trans ?_
  rw [← Equiv.sum_comp (contrEquiv1 dot_S2x32x2048_S2x2048x768_S2x32x768_2_1_1_2_0_0 2048 rfl rfl).symm]
  refine Finset.sum_congr rfl fun l _ => ?_
  have hl : dot_S2x32x2048_S2x2048x768_S2x32x768_2_1_1_2_0_0.lhsIdx (ix3 r s d)
      ((contrEquiv1 dot_S2x32x2048_S2x2048x768_S2x32x768_2_1_1_2_0_0 2048 rfl rfl).symm l) = ix3 r s l := by
    funext a; apply Fin.ext
    match a with
    | ⟨0, _⟩ => rfl
    | ⟨1, _⟩ => rfl
    | ⟨2, _⟩ =>
      exact (DotDims.lhsIdx_val_of_single _ (cl := (2 : Fin 3)) rfl _ _).trans
        (contrEquiv1_symm_val dot_S2x32x2048_S2x2048x768_S2x32x768_2_1_1_2_0_0 2048 rfl rfl l)
  have hr : dot_S2x32x2048_S2x2048x768_S2x32x768_2_1_1_2_0_0.rhsIdx (ix3 r s d)
      ((contrEquiv1 dot_S2x32x2048_S2x2048x768_S2x32x768_2_1_1_2_0_0 2048 rfl rfl).symm l) = ix3 r l d := by
    funext a; apply Fin.ext
    match a with
    | ⟨0, _⟩ => rfl
    | ⟨1, _⟩ =>
      exact (DotDims.rhsIdx_val_of_single _ (cr := (1 : Fin 3)) rfl _ _).trans
        (contrEquiv1_symm_val dot_S2x32x2048_S2x2048x768_S2x32x768_2_1_1_2_0_0 2048 rfl rfl l)
    | ⟨2, _⟩ => rfl
  rw [hl, hr]

/-- THE STORED ELEMENT: the window's weighted sum of the row's embeddings, times the live factor over the length. -/
theorem pay_apply (x : Vec Ideal S2x2048x768 .f32) (a z : Vec Ideal S2x32x1 .i32) (v : Vec Ideal S2x32x1 .f32)
    (r : Fin 2) (s : Fin 32) (d : Fin 768) :
    k0_pay1 (F := Ideal) x a z v (ix3 r s d)
      = (∑ l : Fin 2048, weight (a (ix3 r s (0 : Fin 1))) (stop (a (ix3 r s (0 : Fin 1))) (z (ix3 r s (0 : Fin 1)))) l * x (ix3 r l d))
        * (v (ix3 r s (0 : Fin 1)) * Ideal.div (Ideal.ofBits .f32 0x3F800000#32)
            (max (((IntOp.subi (stop (a (ix3 r s (0 : Fin 1))) (z (ix3 r s (0 : Fin 1)))) (a (ix3 r s (0 : Fin 1)))).toInt : ℝ) : EReal)
              (Ideal.ofBits .f32 0x3F800000#32))) := by
  unfold k0_pay1
  show _ * _ = _ * _
  congr 1
  · refine (contraction_apply _ _ r s d).trans (Finset.sum_congr rfl fun l _ => ?_)
    simp only [truncf, sitofp, extui, andi, cmpi, minsi, addi, broadcast, spread_apply, shapeCast_self]
    rw [counter_apply]
    rfl
  · simp only [mulf, divf, maximumf, sitofp, subi, minsi, addi, broadcast, spread_apply, shapeCast_self]
    rfl

end Cert.KernelIdeal.BlockValue

end
-- ==== Proof.KernelArray.lean ====
/-
  The kernel's result arrays as functions of the argument arrays.

  The region walks 32 grid points; point `t` holds batch rows `2t` and `2t + 1`. Before the region the host writes three
  `[64, 32, 1]` arrays from the arguments: the spans' first tokens (stored position plus one, first column), the tokens after
  their last (second column), and each span's live bit as a number; it also writes the live mask itself, which is the
  program's second result. Each point's block of these arrays and of the embeddings is the array at rows `2t + r`, so what
  the point stores at `(r, s, d)` is the pooled value at `(2t + r, s, d)`; the 32 blocks tile the result, which therefore
  ends as the pooled function of the arguments.
-/
import proofs.«401474_j7894149890369_3_alg».proof.Proof.Gen.KernelIdeal.Value
import proofs.«401474_j7894149890369_3_alg».proof.Proof.KernelPay
import proofs.«401474_j7894149890369_3_alg».proof.Proof.Spec
import Idealize.ShloMosaic.Lib.StableHlo.Run
import Idealize.ShloMosaic.Lib.ValueIdx
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.SpanPool
open Idealize.ShloMosaic.Pipeline (Dat)

variable (m : (ℓ : Loc nD τ sig) → Buf (Elt Ideal) ℓ) (ρ : Dev nD → PrngReg)

/-- The three argument arrays the result depends on, at core `c`, as launched. -/
abbrev embeddings (c : Dev nD) : SE.Idx → EReal := m ((c : Thread nD τ).loc main_arg0)
abbrev positions (c : Dev nD) : SP.Idx → BitVec 32 := m ((c : Thread nD τ).loc main_arg1)
abbrev counts (c : Dev nD) : SN.Idx → BitVec 32 := m ((c : Thread nD τ).loc main_arg2)

/-! ## Layout operations of the host prefix, read at an index -/

/-- Column `k` of the `[64, 32, 2]` array, as a `[64, 32, 1]` slice, reads the array at `(b, s, k)`. -/
theorem column0_apply {α : Type} (x : S64x32x2.Idx → α) (h : S64x32x2.Slices ![0, 0, 0] S64x32x1) (b : Fin 64) (s : Fin 32) :
    extractStridedSlice S64x32x1 ![0, 0, 0] x h (ix3 b s (0 : Fin 1)) = x (ix3 b s (0 : Fin 2)) := by
  unfold extractStridedSlice
  refine congrArg x (funext fun a => Fin.ext ?_)
  match a with
  | ⟨0, _⟩ => exact Nat.zero_add _
  | ⟨1, _⟩ => exact Nat.zero_add _
  | ⟨2, _⟩ => rfl
theorem column1_apply {α : Type} (x : S64x32x2.Idx → α) (h : S64x32x2.Slices ![0, 0, 1] S64x32x1) (b : Fin 64) (s : Fin 32) :
    extractStridedSlice S64x32x1 ![0, 0, 1] x h (ix3 b s (0 : Fin 1)) = x (ix3 b s (1 : Fin 2)) := by
  unfold extractStridedSlice
  refine congrArg x (funext fun a => Fin.ext ?_)
  match a with
  | ⟨0, _⟩ => exact Nat.zero_add _
  | ⟨1, _⟩ => exact Nat.zero_add _
  | ⟨2, _⟩ => rfl

/-- Dropping and restoring a trailing unit axis keeps the entry `(b, s)`. -/
theorem dropUnit_apply {α : Type} (x : S64x32x1.Idx → α) (h : S64x32x1.ShapeCasts S64x32) (b : Fin 64) (s : Fin 32) :
    shapeCast S64x32 x h (ix2 b s) = x (ix3 b s (0 : Fin 1)) :=
  shapeCast_apply x h (ix2 b s) (ix3 b s (0 : Fin 1)) (by
    rw [Shape.rowMajor_val_two, Shape.rowMajor_val_three]
    show (b.val * 32 + s.val) * 1 + 0 = b.val * 32 + s.val
    omega)
theorem addUnit_apply {α : Type} (x : S64x32.Idx → α) (h : S64x32.ShapeCasts S64x32x1) (b : Fin 64) (s : Fin 32) :
    shapeCast S64x32x1 x h (ix3 b s (0 : Fin 1)) = x (ix2 b s) :=
  shapeCast_apply x h (ix3 b s (0 : Fin 1)) (ix2 b s) (by
    rw [Shape.rowMajor_val_two, Shape.rowMajor_val_three]
    show b.val * 32 + s.val = (b.val * 32 + s.val) * 1 + 0
    omega)

/-- A per-row word spread over the row's 32 spans reads the row's word. -/
theorem rowSpread_apply {α : Type} (v : S64.Idx → α) (h1 : S64.BroadcastsInDim S64x1 ![0]) (h2 : S64x1.BroadcastsInDim S64x32 ![0, 1])
    (b : Fin 64) (s : Fin 32) : broadcastInDim S64x32 ![0, 1] h2 (broadcastInDim S64x1 ![0] h1 v) (ix2 b s) = v (ix1 b) := by
  simp only [broadcastInDim]
  refine congrArg v (funext fun a => ?_)
  match a with
  | ⟨0, _⟩ => rfl

/-- The span counter spread over the rows reads the span's number. -/
theorem spanCounter_apply (h1 : S32.BroadcastsInDim S1x32 ![1]) (h2 : S1x32.BroadcastsInDim S64x32 ![0, 1]) (b : Fin 64) (s : Fin 32) :
    broadcastInDim S64x32 ![0, 1] h2 (broadcastInDim S1x32 ![1] h1 (iotaInDim S32 32 0)) (ix2 b s) = BitVec.ofNat 32 s.val := rfl

/-! ## The arrays the host writes before the region -/

theorem firsts_eq (c : Dev nD) : (V m c main_v13 : S64x32x1.Idx → BitVec 32)
    = shapeCast S64x32x1 (shapeCast S64x32 (extractStridedSlice S64x32x1 ![0, 0, 0]
        (addi (positions m c) (broadcastInDim S64x32x2 ![] bcast_S_S64x32x2 (constantI S_ 32 1#32))) slices_S64x32x2_S64x32x1_0_0_0)
        shapeCasts_S64x32x1_S64x32) shapeCasts_S64x32_S64x32x1 := by
  dsimp only [Gen.V, Gen.hostOps0]; after_results <;> rfl

theorem afters_eq (c : Dev nD) : (V m c main_v14 : S64x32x1.Idx → BitVec 32)
    = shapeCast S64x32x1 (shapeCast S64x32 (extractStridedSlice S64x32x1 ![0, 0, 1]
        (addi (positions m c) (broadcastInDim S64x32x2 ![] bcast_S_S64x32x2 (constantI S_ 32 1#32))) slices_S64x32x2_S64x32x1_0_0_1)
        shapeCasts_S64x32x1_S64x32) shapeCasts_S64x32_S64x32x1 := by
  dsimp only [Gen.V, Gen.hostOps0]; after_results <;> rfl

theorem liveBits_eq (c : Dev nD) : (V m c main_v11 : S64x32.Idx → BitVec 1)
    = cmpi .slt (broadcastInDim S64x32 ![0, 1] bcast_S1x32_S64x32_0_1 (broadcastInDim S1x32 ![1] bcast_S32_S1x32_1 (iotaInDim S32 32 0)))
        (broadcastInDim S64x32 ![0, 1] bcast_S64x1_S64x32_0_1 (broadcastInDim S64x1 ![0] bcast_S64_S64x1_0 (counts m c))) := by
  dsimp only [Gen.V, Gen.hostOps0]; after_results <;> rfl

theorem liveFactors_eq (c : Dev nD) : (V m c main_v15 : S64x32x1.Idx → EReal)
    = shapeCast S64x32x1 (uitofp (F := Ideal) .f32 (cmpi .slt
        (broadcastInDim S64x32 ![0, 1] bcast_S1x32_S64x32_0_1 (broadcastInDim S1x32 ![1] bcast_S32_S1x32_1 (iotaInDim S32 32 0)))
        (broadcastInDim S64x32 ![0, 1] bcast_S64x1_S64x32_0_1 (broadcastInDim S64x1 ![0] bcast_S64_S64x1_0 (counts m c)))))
        shapeCasts_S64x32_S64x32x1 := by
  dsimp only [Gen.V, Gen.hostOps0]; after_results <;> rfl

/-- The first-token array holds each span's first token. -/
theorem firsts_apply (c : Dev nD) (b : Fin 64) (s : Fin 32) : V m c main_v13 (ix3 b s (0 : Fin 1)) = first (positions m c) b s := by
  refine (congrFun (firsts_eq m c) _).trans ?_
  rw [addUnit_apply, dropUnit_apply, column0_apply]
  rfl

/-- The array of ends holds the token after each span's last. -/
theorem afters_apply (c : Dev nD) (b : Fin 64) (s : Fin 32) : V m c main_v14 (ix3 b s (0 : Fin 1)) = after (positions m c) b s := by
  refine (congrFun (afters_eq m c) _).trans ?_
  rw [addUnit_apply, dropUnit_apply, column1_apply]
  rfl

/-- The live mask is the Spec's. -/
theorem liveBits_apply (c : Dev nD) : (V m c main_v11 : S64x32.Idx → BitVec 1) = liveMask (counts m c) := by
  rw [liveBits_eq]
  funext i
  obtain ⟨b, s, rfl⟩ : ∃ (b : Fin 64) (s : Fin 32), i = ix2 b s := ⟨i 0, i 1, eq_ix2 i⟩
  show IntOp.cmpi .slt _ _ = IntOp.cmpi .slt _ _
  rw [spanCounter_apply, rowSpread_apply]

/-- The live-factor array holds each span's live bit as a number. -/
theorem liveFactors_apply (c : Dev nD) (b : Fin 64) (s : Fin 32) :
    V m c main_v15 (ix3 b s (0 : Fin 1)) = (((live (counts m c) b s).toNat : ℝ) : EReal) := by
  refine (congrFun (liveFactors_eq m c) _).trans ?_
  rw [addUnit_apply]
  show (((IntOp.cmpi .slt _ _).toNat : ℝ) : EReal) = _
  rw [spanCounter_apply, rowSpread_apply]
  rfl

/-! ## The blocks -/

theorem origin3 : (![0, 0, 0] : Fin 3 → Nat) = fun _ => 0 := funext fun a => by fin_cases a <;> rfl

/-- Every window's block at point `t` starts at row `2t` and at the origin of the other two axes. -/
theorem grid_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := lt_of_lt_of_eq t.isLt N_0

/-- Row `r` of point `t`'s block is batch row `2t + r`. -/
def row (t : Fin cfg0.N) (r : Fin 2) : Fin 64 := ⟨2 * t.val + r.val, by have := point_lt t; omega⟩

theorem emb0 (t : Fin cfg0.N) (r : Fin 2) (s : Fin 32) :
    ((cfg0.win 0).blk t).view.emb (ix3 r s (0 : Fin 1)) = ix3 (row t r) s (0 : Fin 1) := by
  obtain ⟨e0, e1, e2, -⟩ := grid_facts t
  funext a; apply Fin.ext
  match a with
  | ⟨0, _⟩ => show win0_0.index t (0 : Fin 3) * 2 + 1 * r.val = 2 * t.val + r.val; omega
  | ⟨1, _⟩ => show win0_0.index t (1 : Fin 3) * 32 + 1 * s.val = s.val; omega
  | ⟨2, _⟩ => show win0_0.index t (2 : Fin 3) * 1 + 1 * 0 = 0; omega
theorem emb1 (t : Fin cfg0.N) (r : Fin 2) (s : Fin 32) :
    ((cfg0.win 1).blk t).view.emb (ix3 r s (0 : Fin 1)) = ix3 (row t r) s (0 : Fin 1) := by
  obtain ⟨-, -, -, e0, e1, e2, -⟩ := grid_facts t
  funext a; apply Fin.ext
  match a with
  | ⟨0, _⟩ => show win0_1.index t (0 : Fin 3) * 2 + 1 * r.val = 2 * t.val + r.val; omega
  | ⟨1, _⟩ => show win0_1.index t (1 : Fin 3) * 32 + 1 * s.val = s.val; omega
  | ⟨2, _⟩ => show win0_1.index t (2 : Fin 3) * 1 + 1 * 0 = 0; omega
theorem emb2 (t : Fin cfg0.N) (r : Fin 2) (s : Fin 32) :
    ((cfg0.win 2).blk t).view.emb (ix3 r s (0 : Fin 1)) = ix3 (row t r) s (0 : Fin 1) := by
  obtain ⟨-, -, -, -, -, -, e0, e1, e2, -⟩ := grid_facts t
  funext a; apply Fin.ext
  match a with
  | ⟨0, _⟩ => show win0_2.index t (0 : Fin 3) * 2 + 1 * r.val = 2 * t.val + r.val; omega
  | ⟨1, _⟩ => show win0_2.index t (1 : Fin 3) * 32 + 1 * s.val = s.val; omega
  | ⟨2, _⟩ => show win0_2.index t (2 : Fin 3) * 1 + 1 * 0 = 0; omega
theorem emb3 (t : Fin cfg0.N) (r : Fin 2) (l : Fin 2048) (d : Fin 768) :
    ((cfg0.win 3).blk t).view.emb (ix3 r l d) = ix3 (row t r) l d := by
  obtain ⟨-, -, -, -, -, -, -, -, -, e0, e1, e2, -⟩ := grid_facts t
  funext a; apply Fin.ext
  match a with
  | ⟨0, _⟩ => show win0_3.index t (0 : Fin 3) * 2 + 1 * r.val = 2 * t.val + r.val; omega
  | ⟨1, _⟩ => show win0_3.index t (1 : Fin 3) * 2048 + 1 * l.val = l.val; omega
  | ⟨2, _⟩ => show win0_3.index t (2 : Fin 3) * 768 + 1 * d.val = d.val; omega
theorem emb4 (t : Fin cfg0.N) (r : Fin 2) (s : Fin 32) (d : Fin 768) :
    ((cfg0.win 4).blk t).view.emb (ix3 r s d) = ix3 (row t r) s d := by
  obtain ⟨-, -, -, -, -, -, -, -, -, -, -, -, e0, e1, e2⟩ := grid_facts t
  funext a; apply Fin.ext
  match a with
  | ⟨0, _⟩ => show win0_4.index t (0 : Fin 3) * 2 + 1 * r.val = 2 * t.val + r.val; omega
  | ⟨1, _⟩ => show win0_4.index t (1 : Fin 3) * 32 + 1 * s.val = s.val; omega
  | ⟨2, _⟩ => show win0_4.index t (2 : Fin 3) * 768 + 1 * d.val = d.val; omega

/-- WHAT POINT `t` WRITES BACK is its block of the pooled function of the argument arrays. -/
theorem flushed_eq (c : Dev nD) (t : Fin cfg0.N) :
    (dats m 0 c).flushed 4 t
      = ((cfg0.win 4).blk t).view.read (Elt Ideal) (pooled (embeddings m c) (positions m c) (counts m c)) := by
  rw [Value.flushed4]
  unfold out0_4
  rw [View.canon_unit_zero origin3]
  simp only [View.ld_unit_zero (S := S2x2048x768) origin3, View.ld_unit_zero (S := S2x32x1) origin3]
  funext j
  obtain ⟨r, s, d, rfl⟩ : ∃ (r : Fin 2) (s : Fin 32) (d : Fin 768), j = ix3 r s d := ⟨j 0, j 1, j 2, eq_ix3 j⟩
  show k0_pay1 (F := Ideal) (iblk m c 3 t) (iblk m c 0 t) (iblk m c 1 t) (iblk m c 2 t) (ix3 r s d)
    = pooled (embeddings m c) (positions m c) (counts m c) (((cfg0.win 4).blk t).view.emb (ix3 r s d))
  rw [emb4 t r s d]
  refine (BlockValue.pay_apply (iblk m c 3 t) (iblk m c 0 t) (iblk m c 1 t) (iblk m c 2 t) r s d).trans ?_
  have ha : iblk m c 0 t (ix3 r s (0 : Fin 1)) = first (positions m c) (row t r) s := by
    show V m c main_v13 (((cfg0.win 0).blk t).view.emb (ix3 r s (0 : Fin 1))) = _
    rw [emb0]; exact firsts_apply m c _ _
  have hz : iblk m c 1 t (ix3 r s (0 : Fin 1)) = after (positions m c) (row t r) s := by
    show V m c main_v14 (((cfg0.win 1).blk t).view.emb (ix3 r s (0 : Fin 1))) = _
    rw [emb1]; exact afters_apply m c _ _
  have hv : iblk m c 2 t (ix3 r s (0 : Fin 1)) = (((live (counts m c) (row t r) s).toNat : ℝ) : EReal) := by
    show V m c main_v15 (((cfg0.win 2).blk t).view.emb (ix3 r s (0 : Fin 1))) = _
    rw [emb2]; exact liveFactors_apply m c _ _
  have hx : ∀ l : Fin 2048, iblk m c 3 t (ix3 r l d) = embeddings m c (ix3 (row t r) l d) := fun l => by
    show V m c main_arg0 (((cfg0.win 3).blk t).view.emb (ix3 r l d)) = _
    rw [emb3, V_main_arg0]
  rw [ha, hz, hv]
  simp only [hx]
  rfl

/-- An index of the result is in point `t`'s block iff each coordinate is in the block's range on its axis. -/
theorem mem_blk (t : Fin cfg0.N) (i : S64x32x768.Idx) :
    i ∈ ((cfg0.win 4).blk t).view.set ↔ ∀ a : Fin 3, win0_4.index t a * S2x32x768.size a ≤ (i a).val
      ∧ (i a).val < win0_4.index t a * S2x32x768.size a + S2x32x768.size a := by
  show i ∈ ((View.whole main_v16).slice (win0_4.rect t)).set ↔ _
  rw [View.set_slice_whole, Rect.mem_set_unit]
  exact Iff.rfl

/-- The 32 blocks tile the result: row `b` is in point `b / 2`'s block. -/
theorem cover (i : S64x32x768.Idx) : ∃ t : Fin cfg0.N, (cfg0.win 4).flush t = true ∧ i ∈ ((cfg0.win 4).blk t).view.set := by
  have hi0 : (i 0).val < 64 := (i 0).isLt
  have hi1 : (i 1).val < 32 := (i 1).isLt
  have hi2 : (i 2).val < 768 := (i 2).isLt
  have hN : cfg0.N = 32 := N_0
  refine ⟨⟨(i 0).val / 2, by rw [hN]; omega⟩, flush0_4 _, ?_⟩
  rw [mem_blk]
  obtain ⟨-, -, -, -, -, -, -, -, -, -, -, -, e0, e1, e2⟩ := grid_facts ⟨(i 0).val / 2, by rw [hN]; omega⟩
  intro a
  match a with
  | ⟨0, _⟩ =>
    show win0_4.index _ (0 : Fin 3) * 2 ≤ (i 0).val ∧ (i 0).val < win0_4.index _ (0 : Fin 3) * 2 + 2
    rw [e0]; show (i 0).val / 2 * 2 ≤ (i 0).val ∧ (i 0).val < (i 0).val / 2 * 2 + 2; omega
  | ⟨1, _⟩ =>
    show win0_4.index _ (1 : Fin 3) * 32 ≤ (i 1).val ∧ (i 1).val < win0_4.index _ (1 : Fin 3) * 32 + 32
    rw [e1]; omega
  | ⟨2, _⟩ =>
    show win0_4.index _ (2 : Fin 3) * 768 ≤ (i 2).val ∧ (i 2).val < win0_4.index _ (2 : Fin 3) * 768 + 768
    rw [e2]; omega

/-- THE RESULT ARRAY after the run is the pooled function of the argument arrays. -/
theorem final (c : Dev nD) : (dats m 0 c).arrAt 4 cfg0.N = pooled (embeddings m c) (positions m c) (counts m c) :=
  (dats m 0 c).arrAt_eq_of_cover 4 (pooled (embeddings m c) (positions m c) (counts m c)) (fun t _ => flushed_eq m c t) cover

/-- The run with both results named: the pooled array and the live mask, the arguments unchanged. -/
theorem run : θ_run defs (onTc (τ := τ) (main (F := Ideal))) ⟨m, fun _ => 0, ρ⟩ fun r => ∀ c : Dev nD,
      r.2.mem ((c : Thread nD τ).loc main_v16) = pooled (embeddings m c) (positions m c) (counts m c)
      ∧ r.2.mem ((c : Thread nD τ).loc main_v11) = liveMask (counts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final m c),
      ((h c).2 main_v11 (Pipeline.mem_restRefs_of main_v11 (by decide) (by decide))).trans (liveBits_apply m c),
      Value.kept_main_arg0 m r h c,
      Value.kept_main_arg1 m r h c,
      Value.kept_main_arg2 m r h c,
      Value.kept_main_arg3 m r h c⟩)
    (run_main m ρ)

end Cert.KernelIdeal.ArrayValue

end
-- ==== Proof.RefRead.lean ====
/-
  The reference program read at an index.

  The reference flattens batch row b and span s to the row n = 32 b + s, builds for each of the sixteen
  offsets k the token position (first + k, clipped into the sequence), gathers the embeddings there, zeroes the
  offsets that do not stay before the span's end, sums the sixteen terms, divides by the number of offsets kept
  (at least one), and zeroes the spans that are not live. Each operation of the program is read at one index from
  its operands at one index; composed from the result backwards this gives, at (b, s, d), exactly the sixteen-offset
  spelling of the pooled span mean, and for the mask exactly the live-span bit.

  Three operations are neither elementwise nor a change of layout: the concatenation that pairs the batch row with the
  token position (each element comes from one of the two operands, chosen by its last coordinate), the gather that reads
  the embeddings at that pair (which element it reads depends on the start indices' values, both components clamped into
  the operand), and the integer sum that counts the kept offsets (a fold over an axis). Each is read at an index from its
  definition.
-/
import proofs.«401474_j7894149890369_3_alg».proof.Proof.Gen.ReferenceIdeal.Read
import proofs.«401474_j7894149890369_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Cert.SpanPool
open Idealize.ShloMosaic Idealize.ShloMosaic.TcCoe Idealize.SL.Sem Idealize.ShloMosaic.StableHlo Idealize.ShloMosaic.ValueIdx

/-! ## Indices are equal when their coordinates are -/

theorem ext1 {n : Nat} {f g : (⟨1, ![n]⟩ : Shape).Idx} (h0 : f 0 = g 0) : f = g := by
  funext a; match a with | ⟨0, _⟩ => exact h0

theorem ext2 {n0 n1 : Nat} {f g : (⟨2, ![n0, n1]⟩ : Shape).Idx} (h0 : f 0 = g 0) (h1 : f 1 = g 1) : f = g := by
  funext a; match a with | ⟨0, _⟩ => exact h0 | ⟨1, _⟩ => exact h1

theorem ext3 {n0 n1 n2 : Nat} {f g : (⟨3, ![n0, n1, n2]⟩ : Shape).Idx} (h0 : f 0 = g 0) (h1 : f 1 = g 1) (h2 : f 2 = g 2) :
    f = g := by
  funext a; match a with | ⟨0, _⟩ => exact h0 | ⟨1, _⟩ => exact h1 | ⟨2, _⟩ => exact h2

/-- The flattened row 32 b + s of batch row b and span s. -/
abbrev row (b : Fin 64) (s : Fin 32) : Fin 2048 := ⟨b.val * 32 + s.val, by have := b.isLt; have := s.isLt; omega⟩

variable (x0 : (⟨S64x2048x768, .f32⟩ : BufTy).Contents (Elt Ideal)) (x1 : (⟨S64x32x2, .i32⟩ : BufTy).Contents (Elt Ideal))
  (x2 : (⟨S64, .i32⟩ : BufTy).Contents (Elt Ideal))

/-! ## The two boundaries and the batch row, at the flattened row -/

/-- The first token of span (b, s), read at its flattened row. -/
theorem v4_row (b : Fin 64) (s : Fin 32) : val_main_v4 (F := Ideal) x1 (ix1 (row b s)) = first x1 b s := by
  have hb := b.isLt; have hs := s.isLt
  have e4 : idx_main_v4 (ix1 (row b s)) = ix2 b s :=
    ext2 (Fin.ext (by show (b.val * 32 + s.val) / 32 = b.val; omega)) (Fin.ext (by show (b.val * 32 + s.val) % 32 = s.val; omega))
  have e3 : idx_main_v3 (ix2 b s) = ix3 b s (0 : Fin 1) :=
    ext3 (Fin.ext (by show (b.val * 32 + s.val) / 32 = b.val; omega)) (Fin.ext (by show (b.val * 32 + s.val) / 1 % 32 = s.val; omega)) rfl
  have e2 : idx_main_v2 (ix3 b s (0 : Fin 1)) = ix3 b s (0 : Fin 2) := ext3 rfl rfl rfl
  rw [val_main_v4_apply, e4, val_main_v3_apply, e3, val_main_v2_apply, e2, val_main_v1_apply, val_main_v0_apply, val_main_c_apply]
  rfl

/-- The token after the last of span (b, s), read at its flattened row. -/
theorem v7_row (b : Fin 64) (s : Fin 32) : val_main_v7 (F := Ideal) x1 (ix1 (row b s)) = after x1 b s := by
  have hb := b.isLt; have hs := s.isLt
  have e7 : idx_main_v7 (ix1 (row b s)) = ix2 b s :=
    ext2 (Fin.ext (by show (b.val * 32 + s.val) / 32 = b.val; omega)) (Fin.ext (by show (b.val * 32 + s.val) % 32 = s.val; omega))
  have e6 : idx_main_v6 (ix2 b s) = ix3 b s (0 : Fin 1) :=
    ext3 (Fin.ext (by show (b.val * 32 + s.val) / 32 = b.val; omega)) (Fin.ext (by show (b.val * 32 + s.val) / 1 % 32 = s.val; omega)) rfl
  have e5 : idx_main_v5 (ix3 b s (0 : Fin 1)) = ix3 b s (1 : Fin 2) := ext3 rfl rfl rfl
  rw [val_main_v7_apply, e7, val_main_v6_apply, e6, val_main_v5_apply, e5, val_main_v1_apply, val_main_v0_apply, val_main_c_apply]
  rfl

/-- The rebuilt batch row at the flattened row of (b, s) is b. -/
theorem v10_row (b : Fin 64) (s : Fin 32) : val_main_v10 (F := Ideal) (ix1 (row b s)) = BitVec.ofNat 32 b.val := by
  have hb := b.isLt; have hs := s.isLt
  have e10 : idx_main_v10 (ix1 (row b s)) = ix2 b s :=
    ext2 (Fin.ext (by show (b.val * 32 + s.val) / 32 = b.val; omega)) (Fin.ext (by show (b.val * 32 + s.val) % 32 = s.val; omega))
  have e9 : idx_main_v9 (ix2 b s) = ix1 b := ext1 rfl
  rw [val_main_v10_apply, e10, val_main_v9_apply, e9, val_main_v8_apply]

/-! ## The sixteen offsets -/

/-- Offset k from the first token. -/
theorem v16_row (b : Fin 64) (s : Fin 32) (k : Fin 16) :
    val_main_v16 (F := Ideal) x1 (ix2 (row b s) k) = IntOp.addi (first x1 b s) (BitVec.ofNat 32 k.val) := by
  have e14 : idx_main_v14 (ix2 (row b s) k) = ix2 (row b s) (0 : Fin 1) := ext2 rfl rfl
  have e12 : idx_main_v12 (ix2 (row b s) (0 : Fin 1)) = ix1 (row b s) := ext1 rfl
  have e15 : idx_main_v15 (ix2 (row b s) k) = ix2 (0 : Fin 1) k := ext2 rfl rfl
  have e13 : idx_main_v13 (ix2 (0 : Fin 1) k) = ix1 k := ext1 rfl
  rw [val_main_v16_apply, val_main_v14_apply, e14, val_main_v12_apply, e12, v4_row, val_main_v15_apply, e15, val_main_v13_apply, e13,
    val_main_v11_apply]

/-- The span's end, broadcast along the offsets. -/
theorem v18_row (b : Fin 64) (s : Fin 32) (k : Fin 16) : val_main_v18 (F := Ideal) x1 (ix2 (row b s) k) = after x1 b s := by
  have e18 : idx_main_v18 (ix2 (row b s) k) = ix2 (row b s) (0 : Fin 1) := ext2 rfl rfl
  have e17 : idx_main_v17 (ix2 (row b s) (0 : Fin 1)) = ix1 (row b s) := ext1 rfl
  rw [val_main_v18_apply, e18, val_main_v17_apply, e17, v7_row]

/-- The kept bit of offset k. -/
theorem v19_row (b : Fin 64) (s : Fin 32) (k : Fin 16) :
    val_main_v19 (F := Ideal) x1 (ix2 (row b s) k) = kept (first x1 b s) (after x1 b s) k := by
  rw [val_main_v19_apply, v16_row, v18_row]
  rfl

/-- The token position of offset k: the offset clipped into the sequence, wrapped were it negative. -/
theorem v31_row (b : Fin 64) (s : Fin 32) (k : Fin 16) :
    val_main_v31 (F := Ideal) x1 (ix2 (row b s) k) = tokenWord (first x1 b s) k := by
  rw [val_main_v31_apply, val_main_v28_apply, val_main_v30_apply, val_main_v20_apply, val_main_call0_v4_apply, val_main_call0_v3_apply,
    val_main_c_1_apply, val_main_call0_v2_apply, val_main_call0_v1_apply, val_main_call0_v0_apply, val_main_c_0_apply, v16_row,
    val_main_v27_apply, val_main_c_4_apply, val_main_v29_apply, val_main_c_5_apply]
  rfl

/-- A batch row below 64 is not negative as a word, so it is not wrapped. -/
theorem batch_word (b : Fin 64) :
    Scalar.select (IntOp.cmpi .slt (BitVec.ofNat 32 b.val) 0#32) (IntOp.addi (BitVec.ofNat 32 b.val) 64#32) (BitVec.ofNat 32 b.val)
      = BitVec.ofNat 32 b.val := by
  revert b; decide

/-- … and the clamp into the 64 batch rows leaves it where it is. -/
theorem batch_clamp (b : Fin 64) : b.val = min (BitVec.ofNat 32 b.val).toInt.toNat 63 := by
  have hb := b.isLt
  rw [Predicate.toInt_ofNat_small b.val (by omega)]
  simp only [Int.toNat_natCast]
  omega

/-- The batch row of offset k. -/
theorem v32_row (b : Fin 64) (s : Fin 32) (k : Fin 16) : val_main_v32 (F := Ideal) (ix2 (row b s) k) = BitVec.ofNat 32 b.val := by
  have e32 : idx_main_v32 (ix2 (row b s) k) = ix2 (row b s) (0 : Fin 1) := ext2 rfl rfl
  have e21 : idx_main_v21 (ix2 (row b s) (0 : Fin 1)) = ix1 (row b s) := ext1 rfl
  rw [val_main_v32_apply, e32, val_main_v26_apply, val_main_v23_apply, val_main_v25_apply, val_main_v21_apply, e21, v10_row,
    val_main_v22_apply, val_main_c_2_apply, val_main_v24_apply, val_main_c_3_apply]
  exact batch_word b

/-! ## The pair (batch row, token position): the concatenation at its two coordinates -/

theorem v35_zero (b : Fin 64) (s : Fin 32) (k : Fin 16) :
    val_main_v35 (F := Ideal) x1 (ix3 (row b s) k (0 : Fin 2)) = BitVec.ofNat 32 b.val := by
  have e33 : idx_main_v33 (ix3 (row b s) k (0 : Fin 1)) = ix2 (row b s) k := ext2 rfl rfl
  have h : val_main_v35 (F := Ideal) x1 (ix3 (row b s) k (0 : Fin 2)) = val_main_v33 (F := Ideal) (ix3 (row b s) k (0 : Fin 1)) := by
    unfold val_main_v35
    exact concatenate_pair_apply_left _ _ _ concatenates_S2048x16x1_S2048x16x1_S2048x16x2_d2 (ix3 (row b s) k (0 : Fin 2)) rfl
      (ix3 (row b s) k (0 : Fin 1)) (fun c => match c with | ⟨0, _⟩ => rfl | ⟨1, _⟩ => rfl | ⟨2, _⟩ => rfl)
  rw [h, val_main_v33_apply, e33, v32_row]

theorem v35_one (b : Fin 64) (s : Fin 32) (k : Fin 16) :
    val_main_v35 (F := Ideal) x1 (ix3 (row b s) k (1 : Fin 2)) = tokenWord (first x1 b s) k := by
  have e34 : idx_main_v34 (ix3 (row b s) k (0 : Fin 1)) = ix2 (row b s) k := ext2 rfl rfl
  have h : val_main_v35 (F := Ideal) x1 (ix3 (row b s) k (1 : Fin 2)) = val_main_v34 (F := Ideal) x1 (ix3 (row b s) k (0 : Fin 1)) := by
    unfold val_main_v35
    exact concatenate_pair_apply_right _ _ _ concatenates_S2048x16x1_S2048x16x1_S2048x16x2_d2 (ix3 (row b s) k (1 : Fin 2)) rfl rfl
      (ix3 (row b s) k (0 : Fin 1))
      (fun c => match c with | ⟨0, _⟩ => fun _ => rfl | ⟨1, _⟩ => fun _ => rfl | ⟨2, _⟩ => fun hc => absurd rfl hc) rfl
  rw [h, val_main_v34_apply, e34, v31_row]

/-! ## The gather: both start components clamped into the operand, the feature axis carried across -/

/-- The printed dimension numbers: operand axes 0 and 1 start-indexed and collapsed, axis 2 the offset axis. -/
abbrev G : GatherDims S64x2048x768 S2048x16x2 S2048x16x768 := gather_S64x2048x768_S2048x16x2_S2048x16x768_2_01_n_n_01_2_11768

/-- Result element (n, k, d) is the operand at (start component 0 clamped to 63, start component 1 clamped to 2047, d). -/
theorem gather_apply {α : Type} (x : S64x2048x768.Idx → α) (idx : IVec S2048x16x2 32) (n : Fin 2048) (k : Fin 16) (d : Fin 768)
    (r : Fin 64) (t : Fin 2048)
    (hr : r.val = min (idx (ix3 n k (0 : Fin 2))).toInt.toNat 63) (ht : t.val = min (idx (ix3 n k (1 : Fin 2))).toInt.toNat 2047) :
    Host.gather G x idx (ix3 n k d) = x (ix3 r t d) := by
  unfold Host.gather
  refine congrArg x (ext3 (Fin.ext ?_) (Fin.ext ?_) (Fin.ext ?_))
  · show G.start (ix3 n k d) idx 0 + G.batchCoord (ix3 n k d) 0 + G.offCoord (ix3 n k d) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ G.startIndexMap by decide)]
    have hsi : G.siIdx (ix3 n k d) ⟨List.idxOf (0 : Fin 3) G.startIndexMap, List.idxOf_lt_length_iff.2 (by decide)⟩
        = ix3 n k (0 : Fin 2) := by
      funext c; refine Fin.ext ?_
      match c with
      | ⟨0, _⟩ => rfl
      | ⟨1, _⟩ => rfl
      | ⟨2, _⟩ => rfl
    rw [hsi, hr]
    rfl
  · show G.start (ix3 n k d) idx 1 + G.batchCoord (ix3 n k d) 1 + G.offCoord (ix3 n k d) 1 = t.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ G.startIndexMap by decide)]
    have hsi : G.siIdx (ix3 n k d) ⟨List.idxOf (1 : Fin 3) G.startIndexMap, List.idxOf_lt_length_iff.2 (by decide)⟩
        = ix3 n k (1 : Fin 2) := by
      funext c; refine Fin.ext ?_
      match c with
      | ⟨0, _⟩ => rfl
      | ⟨1, _⟩ => rfl
      | ⟨2, _⟩ => rfl
    rw [hsi, ht]
    rfl
  · show G.start (ix3 n k d) idx 2 + G.batchCoord (ix3 n k d) 2 + G.offCoord (ix3 n k d) 2 = d.val
    rw [GatherDims.batchCoord_eq_zero _ _ _ List.not_mem_nil]
    unfold GatherDims.start
    rw [dif_neg (show (2 : Fin 3) ∉ G.startIndexMap by decide)]
    unfold GatherDims.offCoord
    rw [dif_pos (show (2 : Fin 3) ∈ G.sKept by decide)]
    simp only [Nat.zero_add]
    rfl

/-- The embedding gathered for offset k of span (b, s). -/
theorem v36_row (b : Fin 64) (s : Fin 32) (k : Fin 16) (d : Fin 768) :
    val_main_v36 (F := Ideal) x0 x1 (ix3 (row b s) k d) = x0 (ix3 b (token (first x1 b s) k) d) := by
  unfold val_main_v36
  refine gather_apply x0 (val_main_v35 (F := Ideal) x1) (row b s) k d b (token (first x1 b s) k) ?_ ?_
  · rw [v35_zero]; exact batch_clamp b
  · rw [v35_one]; rfl

/-- … zeroed when the offset is not kept. -/
theorem v38_row (b : Fin 64) (s : Fin 32) (k : Fin 16) (d : Fin 768) :
    val_main_v38 (F := Ideal) x0 x1 (ix3 (row b s) k d)
      = Scalar.select (kept (first x1 b s) (after x1 b s) k) (x0 (ix3 b (token (first x1 b s) k) d)) (Ideal.ofBits .f32 0x00000000#32) := by
  have e1 : idx_main_call1_v0 (ix3 (row b s) k d) = ix3 (row b s) k (0 : Fin 1) := ext3 rfl rfl rfl
  have e37 : idx_main_v37 (ix3 (row b s) k (0 : Fin 1)) = ix2 (row b s) k := ext2 rfl rfl
  rw [val_main_v38_apply, val_main_call1_v0_apply, e1, val_main_v37_apply, e37, v19_row, v36_row, val_main_call1_v1_apply,
    val_main_cst_apply]
  rfl

/-! ## The count of kept offsets -/

/-- The sum of the widened bits of a [2048 × 16] mask along its columns is, at row n, the number of set bits of that row. -/
theorem count_apply (mask : IVec S2048x16 1) (n : Fin 2048) :
    Host.reduce IntOp.addi (extui 32 mask natLt_1_32) (constantI S_ 32 0#32) reducesTo_S2048x16_S2048_d1 h_S_ (ix1 n)
      = BitVec.ofNat 32 (Finset.univ.filter fun q : Fin 16 => mask (ix2 n q) = 1#1).card := by
  apply BitVec.eq_of_toNat_eq
  have hle : (Finset.univ.filter fun q : Fin 16 => mask (ix2 n q) = 1#1).card ≤ 16 :=
    (Finset.card_le_univ _).trans_eq (Fintype.card_fin 16)
  rw [BitVec.toNat_ofNat, Nat.mod_eq_of_lt (by omega)]
  rw [Predicate.toNat_reduce_count_cols (by decide) mask natLt_1_32 reducesTo_S2048x16_S2048_d1 h_S_ (ix1 n)]
  refine congrArg Finset.card (Finset.filter_congr fun q _ => ?_)
  exact Iff.of_eq (congrArg (fun i => mask i = 1#1) (ext2 rfl rfl))

/-- The count word of span (b, s) is the number of kept offsets. -/
theorem v40_row (b : Fin 64) (s : Fin 32) :
    val_main_v40 (F := Ideal) x1 (ix1 (row b s)) = BitVec.ofNat 32 (keptCount (first x1 b s) (after x1 b s)) := by
  unfold val_main_v40 val_main_v39 val_main_c_6
  rw [count_apply]
  unfold keptCount
  simp only [v19_row]

/-- The divisor: the count, at least one, as an extended real. -/
theorem v46_row (b : Fin 64) (s : Fin 32) (d : Fin 768) :
    val_main_v46 (F := Ideal) x1 (ix2 (row b s) d)
      = (((IntOp.maxsi (BitVec.ofNat 32 (keptCount (first x1 b s) (after x1 b s))) 1#32).toInt : ℝ) : EReal) := by
  have e46 : idx_main_v46 (ix2 (row b s) d) = ix2 (row b s) (0 : Fin 1) := ext2 rfl rfl
  have e41 : idx_main_v41 (ix2 (row b s) (0 : Fin 1)) = ix1 (row b s) := ext1 rfl
  rw [val_main_v46_apply, e46, val_main_v44_apply, val_main_v43_apply, val_main_v41_apply, e41, v40_row, val_main_v42_apply,
    val_main_c_7_apply]
  rfl

/-! ## The mean of span (b, s) at feature d, and the live-span bit -/

theorem v47_row (b : Fin 64) (s : Fin 32) (d : Fin 768) :
    val_main_v47 (F := Ideal) x0 x1 (ix2 (row b s) d)
      = Ideal.div
          (Ideal.ofBits .f32 0x00000000#32 + ∑ j : Fin 16,
            Scalar.select (kept (first x1 b s) (after x1 b s) j) (x0 (ix3 b (token (first x1 b s) j) d)) (Ideal.ofBits .f32 0x00000000#32))
          (((IntOp.maxsi (BitVec.ofNat 32 (keptCount (first x1 b s) (after x1 b s))) 1#32).toInt : ℝ) : EReal) := by
  have e45 : ∀ j : Fin 16, idx_main_v45 (ix2 (row b s) d) j = ix3 (row b s) j d := fun j => ext3 rfl rfl rfl
  rw [val_main_v47_apply, val_main_v45_apply, val_main_cst_8_apply, v46_row, Ideal.hostDivf_def, Ideal.ofBits_def]
  refine congrArg (fun t => Ideal.div (Ideal.ofBits .f32 0x00000000#32 + t) _) (Finset.sum_congr rfl fun j _ => ?_)
  rw [e45, v38_row]

theorem v54_at (b : Fin 64) (s : Fin 32) : val_main_v54 (F := Ideal) x2 (ix2 b s) = live x2 b s := by
  have e52 : idx_main_v52 (ix2 b s) = ix2 (0 : Fin 1) s := ext2 rfl rfl
  have e50 : idx_main_v50 (ix2 (0 : Fin 1) s) = ix1 s := ext1 rfl
  have e53 : idx_main_v53 (ix2 b s) = ix2 b (0 : Fin 1) := ext2 rfl rfl
  have e51 : idx_main_v51 (ix2 b (0 : Fin 1)) = ix1 b := ext1 rfl
  rw [val_main_v54_apply, val_main_v52_apply, e52, val_main_v50_apply, e50, val_main_v49_apply, val_main_v53_apply, e53,
    val_main_v51_apply, e51]
  rfl

/-! ## The two results -/

/-- THE POOLED RESULT of the reference program is the sixteen-offset spelling of the span mean. -/
theorem pooled_eq (x0 : (⟨S64x2048x768, .f32⟩ : BufTy).Contents (Elt Ideal)) (x1 : (⟨S64x32x2, .i32⟩ : BufTy).Contents (Elt Ideal))
    (x2 : (⟨S64, .i32⟩ : BufTy).Contents (Elt Ideal)) :
    Read.val_main_v56 (F := Ideal) x0 x1 x2 = Cert.SpanPool.gatherPooled x0 x1 x2 := by
  funext i
  obtain ⟨b, s, d, rfl⟩ : ∃ b s d, i = ix3 b s d := ⟨i 0, i 1, i 2, eq_ix3 i⟩
  have hb := b.isLt; have hs := s.isLt; have hd := d.isLt
  have e0 : idx_main_call2_v0 (ix3 b s d) = ix3 b s (0 : Fin 1) := ext3 rfl rfl rfl
  have e55 : idx_main_v55 (ix3 b s (0 : Fin 1)) = ix2 b s := ext2 rfl rfl
  have e48 : idx_main_v48 (ix3 b s d) = ix2 (row b s) d :=
    ext2 (Fin.ext (by show ((b.val * 32 + s.val) * 768 + d.val) / 768 = b.val * 32 + s.val; omega))
      (Fin.ext (by show ((b.val * 32 + s.val) * 768 + d.val) % 768 = d.val; omega))
  rw [val_main_v56_apply, val_main_call2_v0_apply, e0, val_main_v55_apply, e55, v54_at, val_main_v48_apply, e48, v47_row,
    val_main_call2_v1_apply, val_main_cst_9_apply]
  rfl

/-- THE MASK of the reference program is the live-span mask. -/
theorem mask_eq (x2 : (⟨S64, .i32⟩ : BufTy).Contents (Elt Ideal)) : Read.val_main_v54 (F := Ideal) x2 = Cert.SpanPool.liveMask x2 := by
  funext i
  obtain ⟨b, s, rfl⟩ : ∃ b s, i = ix2 b s := ⟨i 0, i 1, eq_ix2 i⟩
  rw [v54_at]
  rfl

end Cert.ReferenceIdeal.RefValue

end
-- ==== Proof.PreDecode.lean ====
/-
  What the precondition says of the stored span positions.

  The precondition is the conjunction of three tests over whole arrays: every embedding is finite, every stored
  position is at least `-1`, every stored position is at most `2047`. Each test is an `and` over all the elements of a
  comparison, so when the conjunction holds every element passes each comparison; read as signed numbers the two
  comparisons of the positions say that each lies in `[-1, 2047]`.
-/
import proofs.«401474_j7894149890369_3_alg».proof.Pre_finite_inputs
import proofs.«401474_j7894149890369_3_alg».proof.Proof.Spec
import Idealize.ShloMosaic.Lib.ReduceAll
import Idealize.ShloMosaic.Lib.ValueIdx
import Idealize.ShloMosaic.Lib.StableHlo.Predicate

noncomputable section

namespace Cert.Pre_finite_inputs.Decode

open Idealize.ShloMosaic Cert.Pre_finite_inputs Cert.SpanPool

variable [Cert.Pre_finite_inputs.Facts]

/-- The scalar shape has one index. -/
instance : Subsingleton S_.Idx := ⟨fun _ _ => funext fun d => d.elim0⟩

/-- Under the precondition every stored span position lies in `[-1, 2047]`. -/
theorem inRange_of_pre {F : FTy → Type} [FloatOps F] (x0 : FVec F S64x2048x768 .f32) (x1 : IVec S64x32x2 32)
    (x2 : IVec S64 32) (x3 : IVec S2048 32) (h : fn (F := F) x0 x1 x2 x3 = fun _ => 1#1) : InRange x1 := by
  have h0 := congrFun h ValueIdx.ix0
  dsimp only [fn] at h0
  obtain ⟨h12, h3⟩ := IntOp.andi_eq_one.1 h0
  obtain ⟨_, h2⟩ := IntOp.andi_eq_one.1 h12
  intro i
  have hge := Host.reduce_andi_all _ _ _ _ _ h2 i
  have hle := Host.reduce_andi_all _ _ _ _ _ h3 i
  have e1 : (4294967295#32 : BitVec 32).toInt = -1 := by decide
  have e2 : (2047#32 : BitVec 32).toInt = 2047 := by decide
  constructor
  · have hb : BitVec.ofBool ((4294967295#32 : BitVec 32).sle (x1 i)) = 1#1 := hge
    rw [StableHlo.Predicate.ofBool_eq_one_iff, BitVec.sle, decide_eq_true_eq, e1] at hb
    exact hb
  · have hb : BitVec.ofBool ((x1 i).sle (2047#32 : BitVec 32)) = 1#1 := hle
    rw [StableHlo.Predicate.ofBool_eq_one_iff, BitVec.sle, decide_eq_true_eq, e2] at hb
    exact hb

end Cert.Pre_finite_inputs.Decode

end
-- ==== Proof.lean ====
/-
  Span pooling: the kernel and the reference compute the same means.

  For each batch row `b` and span `s` both programs average the token embeddings `E[b, l, ·]` over the span's window:
  the tokens from the span's first (the stored position plus one) up to, but not including, the smallest of the token
  after its last, sixteen tokens on, and the end of the sequence. The reference walks sixteen offsets from the first
  token, keeps those before the span's end, reads each at the offset clipped into the sequence and divides by the number
  kept. The kernel weights every token of the sequence by one inside the window and zero outside, contracts the weights
  with the row's embeddings, and multiplies by the reciprocal of the window's length; a span whose number is not below
  the row's span count gives zero in both, and both return the mask of live spans.

  The two agree when both boundaries of every span are positions of the sequence, which is what the precondition's
  range test on the stored positions says: then no kept offset is clipped, the kept offsets are exactly the window's
  tokens, and their number is the window's length. On the extended reals a zero weight annihilates any embedding and a
  quotient by a real at least one is the product with its reciprocal, so no finiteness of the embeddings is used.

  The kernel's frame is its generated run, and so is the idealized kernel's; the reference's frame is its generated run
  with the results dropped. The idealization rewrote nothing, so it preserves the kernel trivially. For the value claim
  the kernel's result array is read off its run block by block (Proof/KernelPay.lean, Proof/KernelArray.lean), the
  reference's off its run stage by stage (Proof/RefRead.lean); Proof/SpanMath.lean proves the two spellings of the mean
  equal in range, and Proof/PreDecode.lean reads the range out of the precondition.
-/
import proofs.«401474_j7894149890369_3_alg».proof.Defs
import proofs.«401474_j7894149890369_3_alg».proof.Proof.Gen.Kernel
import proofs.«401474_j7894149890369_3_alg».proof.Proof.Gen.Kernel.Skeleton
import proofs.«401474_j7894149890369_3_alg».proof.Proof.Gen.Kernel.Launch
import proofs.«401474_j7894149890369_3_alg».proof.Proof.Gen.Kernel.Points
import proofs.«401474_j7894149890369_3_alg».proof.Proof.Gen.Kernel.Frame
import proofs.«401474_j7894149890369_3_alg».proof.Proof.Gen.KernelIdeal
import proofs.«401474_j7894149890369_3_alg».proof.Proof.Gen.KernelIdeal.Skeleton
import proofs.«401474_j7894149890369_3_alg».proof.Proof.Gen.KernelIdeal.Launch
import proofs.«401474_j7894149890369_3_alg».proof.Proof.Gen.KernelIdeal.Points
import proofs.«401474_j7894149890369_3_alg».proof.Proof.Gen.KernelIdeal.Frame
import proofs.«401474_j7894149890369_3_alg».proof.Proof.Gen.ReferenceIdeal
import proofs.«401474_j7894149890369_3_alg».proof.Proof.Gen.Pre_finite_inputs
import proofs.«401474_j7894149890369_3_alg».proof.Proof.Gen.KernelIdeal.Value
import proofs.«401474_j7894149890369_3_alg».proof.Proof.Gen.ReferenceIdeal.Run
import proofs.«401474_j7894149890369_3_alg».proof.Proof.Gen.ReferenceIdeal.Read
import proofs.«401474_j7894149890369_3_alg».proof.Proof.Spec
import proofs.«401474_j7894149890369_3_alg».proof.Proof.SpanMath
import proofs.«401474_j7894149890369_3_alg».proof.Proof.KernelArray
import proofs.«401474_j7894149890369_3_alg».proof.Proof.RefRead
import proofs.«401474_j7894149890369_3_alg».proof.Proof.PreDecode
import Idealize.ShloMosaic.Adequacy
import Idealize.ShloMosaic.Init

noncomputable section

namespace Cert.Proof

open Idealize.ShloMosaic Idealize.SL.Sem Cert.SpanPool

/-- The kernel runs, and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs, and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments and satisfy the precondition, both programs end with the pooled means of
    the argument arrays and the mask of live spans. -/
theorem algebraic : Cert.algebraic_KernelIdeal_ReferenceIdeal := by
  intro m ρ m' ρ' hpre hagree
  refine ⟨fun c => pooled (Cert.KernelIdeal.ArrayValue.embeddings m c) (Cert.KernelIdeal.ArrayValue.positions m c)
      (Cert.KernelIdeal.ArrayValue.counts m c), fun c => liveMask (Cert.KernelIdeal.ArrayValue.counts m c),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v56_eq, Cert.ReferenceIdeal.RefValue.pooled_eq, (hagree c).1, (hagree c).2.1,
      (hagree c).2.2.1]
    exact gatherPooled_eq_pooled _ _ _ (Cert.Pre_finite_inputs.Decode.inRange_of_pre _ _ _ _ (hpre c))
  · rw [Cert.ReferenceIdeal.Read.val_main_v54_eq, Cert.ReferenceIdeal.RefValue.mask_eq, (hagree c).2.2.1]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
